-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S512x257 : Shape := ⟨2, ![512, 257]⟩
abbrev S257 : Shape := ⟨1, ![257]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x257 : S_.BroadcastsInDim S512x257 (![] : Fin 0 → Fin S512x257.rank)
  reducesTo_S512x257_S_d0_1 : S512x257.ReducesTo [0, 1] S_
  bcast_S_S257 : S_.BroadcastsInDim S257 (![] : Fin 0 → Fin S257.rank)
  reducesTo_S257_S_d0 : S257.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S256 .f32) (main_arg8 : FVec F S256x128 .f32) (main_arg9 : FVec F S128 .f32) (main_arg10 : FVec F S128x1 .f32) (main_arg11 : FVec F S1 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg8
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg10
  let main_cst_18 : FVec F S_ .f32 := constant S_ .f32 0x7F800000#32
  let main_v50 : FVec F S128x1 .f32 := broadcastInDim S128x1 ![] bcast_S_S128x1 main_cst_18
  fn_part3 (F := F) main_arg11 main_v48 main_v49 main_v50

def fn_part1 {F : FTy → Type} [FloatOps F] (main_arg4 : FVec F S512x257 .f32) (main_arg5 : FVec F S257 .f32) (main_arg6 : FVec F S512x256 .f32) (main_arg7 : FVec F S256 .f32) (main_arg8 : FVec F S256x128 .f32) (main_arg9 : FVec F S128 .f32) (main_arg10 : FVec F S128x1 .f32) (main_arg11 : FVec F S1 .f32) (main_v13 : IVec S_ 1) (main_v16 : IVec S257 1) : IVec S_ 1 :=
  let main_c_5 : IVec S_ 1 := constantI S_ 1 1#1
  let main_v17 : IVec S_ 1 := (fun x v => Host.reduce IntOp.andi x v reducesTo_S257_S_d0 h_S_) main_v16 main_c_5
  let main_v18 : IVec S_ 1 := andi main_v13 main_v17
  let main_v19 : FVec F S512x257 .f32 := Host.absf main_arg4
  let main_cst_6 : FVec F S_ .f32 := constant S_ .f32 0x7F800000#32
  let main_v20 : FVec F S512x257 .f32 := broadcastInDim S512x257 ![] bcast_S_S512x257 main_cst_6
  let main_v21 : IVec S512x257 1 := cmpf .olt main_v19 main_v20
  let main_c_7 : IVec S_ 1 := constantI S_ 1 1#1
  let main_v22 : IVec S_ 1 := (fun x v => Host.reduce IntOp.andi x v reducesTo_S512x257_S_d0_1 h_S_) main_v21 main_c_7
  let main_v23 : IVec S_ 1 := andi main_v18 main_v22
  let main_v24 : FVec F S257 .f32 := Host.absf main_arg5
  let main_cst_8 : FVec F S_ .f32 := constant S_ .f32 0x7F800000#32
  let main_v25 : FVec F S257 .f32 := broadcastInDim S257 ![] bcast_S_S257 main_cst_8
  let main_v26 : IVec S257 1 := cmpf .olt main_v24 main_v25
  let main_c_9 : IVec S_ 1 := constantI S_ 1 1#1
  let main_v27 : IVec S_ 1 := (fun x v => Host.reduce IntOp.andi x v reducesTo_S257_S_d0 h_S_) main_v26 main_c_9
  let main_v28 : IVec S_ 1 := andi main_v23 main_v27
  let main_v29 : FVec F S512x256 .f32 := Host.absf main_arg6
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S16384x512 .f32) (main_arg1 : FVec F S16384x512 .f32) (main_arg2 : FVec F S512x257 .f32) (main_arg3 : FVec F S257 .f32) (main_arg4 : FVec F S512x257 .f32) (main_arg5 : FVec F S257 .f32) (main_arg6 : FVec F S512x256 .f32) (main_arg7 : FVec F S256 .f32) (main_arg8 : FVec F S256x128 .f32) (main_arg9 : FVec F S128 .f32) (main_arg10 : FVec F S128x1 .f32) (main_arg11 : FVec F S1 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S512x257 .f32 := Host.absf main_arg2
  let main_cst_2 : FVec F S_ .f32 := constant S_ .f32 0x7F800000#32
  let main_v10 : FVec F S512x257 .f32 := broadcastInDim S512x257 ![] bcast_S_S512x257 main_cst_2
  let main_v11 : IVec S512x257 1 := cmpf .olt main_v9 main_v10
  let main_c_3 : IVec S_ 1 := constantI S_ 1 1#1
  let main_v12 : IVec S_ 1 := (fun x v => Host.reduce IntOp.andi x v reducesTo_S512x257_S_d0_1 h_S_) main_v11 main_c_3
  let main_v13 : IVec S_ 1 := andi main_v8 main_v12
  let main_v14 : FVec F S257 .f32 := Host.absf main_arg3
  let main_cst_4 : FVec F S_ .f32 := constant S_ .f32 0x7F800000#32
  let main_v15 : FVec F S257 .f32 := broadcastInDim S257 ![] bcast_S_S257 main_cst_4
  let main_v16 : IVec S257 1 := cmpf .olt main_v14 main_v15
  fn_part1 (F := F) main_arg4 main_arg5 main_arg6 main_arg7 main_arg8 main_arg9 main_arg10 main_arg11 main_v13 main_v16
-- ==== Kernel.lean ====
abbrev S16384x512 : Shape := ⟨2, ![16384, 512]⟩
abbrev S512x257 : Shape := ⟨2, ![512, 257]⟩
abbrev S257 : Shape := ⟨1, ![257]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x257 : Shape := ⟨2, ![1, 257]⟩
abbrev S1x256 : Shape := ⟨2, ![1, 256]⟩
abbrev S1x128 : Shape := ⟨2, ![1, 128]⟩
abbrev S1x1 : Shape := ⟨2, ![1, 1]⟩
abbrev S16384x1 : Shape := ⟨2, ![16384, 1]⟩
abbrev S1024x512 : Shape := ⟨2, ![1024, 512]⟩
abbrev S1024x1 : Shape := ⟨2, ![1024, 1]⟩
abbrev S1024x257 : Shape := ⟨2, ![1024, 257]⟩
abbrev S1024x256 : Shape := ⟨2, ![1024, 256]⟩
abbrev S1024x16x16 : Shape := ⟨3, ![1024, 16, 16]⟩
abbrev S1024x16 : Shape := ⟨2, ![1024, 16]⟩
abbrev S1024 : Shape := ⟨1, ![1024]⟩
abbrev S1024x128 : Shape := ⟨2, ![1024, 128]⟩

abbrev nBuf : Space → Nat
  | .hbm => 18
  | .vmem => 16
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S512x257, .f32⟩
  | .hbm, ⟨3, _⟩ => ⟨S257, .f32⟩
  | .hbm, ⟨4, _⟩ => ⟨S512x257, .f32⟩
  | .hbm, ⟨5, _⟩ => ⟨S257, .f32⟩
  | .hbm, ⟨6, _⟩ => ⟨S512x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S1x257, .f32⟩
  | .hbm, ⟨13, _⟩ => ⟨S1x257, .f32⟩
  | .hbm, ⟨14, _⟩ => ⟨S1x256, .f32⟩
  | .hbm, ⟨15, _⟩ => ⟨S1x128, .f32⟩
  | .hbm, ⟨16, _⟩ => ⟨S1x1, .f32⟩
  | .hbm, ⟨17, _⟩ => ⟨S16384x1, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S512x257, .f32⟩
  | .local _ .vmem, ⟨5, _⟩ => ⟨S1x257, .f32⟩
  | .local _ .vmem, ⟨6, _⟩ => ⟨S512x257, .f32⟩
  | .local _ .vmem, ⟨7, _⟩ => ⟨S1x257, .f32⟩
  | .local _ .vmem, ⟨8, _⟩ => ⟨S512x256, .f32⟩
  | .local _ .vmem, ⟨9, _⟩ => ⟨S1x256, .f32⟩
  | .local _ .vmem, ⟨10, _⟩ => ⟨S256x128, .f32⟩
  | .local _ .vmem, ⟨11, _⟩ => ⟨S1x128, .f32⟩
  | .local _ .vmem, ⟨12, _⟩ => ⟨S128x1, .f32⟩
  | .local _ .vmem, ⟨13, _⟩ => ⟨S1x1, .f32⟩
  | .local _ .vmem, ⟨14, _⟩ => ⟨S1024x1, .f32⟩
  | .local _ .vmem, ⟨15, _⟩ => ⟨S1024x1, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x257 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x257 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x257 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x257 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  shapeCasts_S257_S1x257 : S257.ShapeCasts S1x257
  shapeCasts_S256_S1x256 : S256.ShapeCasts S1x256
  shapeCasts_S128_S1x128 : S128.ShapeCasts S1x128
  shapeCasts_S1_S1x1 : S1.ShapeCasts S1x1
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x257_S512x257_0_0 : ∀ a, (![0, 0] : Fin 2 → Nat) a + S512x257.size a ≤ S512x257.size a
  h_S512x257 : 0 < S512x257.numel
  inb_S1x257_S1x257_0_0 : ∀ a, (![0, 0] : Fin 2 → Nat) a + S1x257.size a ≤ S1x257.size a
  h_S1x257 : 0 < S1x257.numel
  shapeCasts_S1x257_S1x257 : S1x257.ShapeCasts S1x257
  broadcasts_S1x257_S1024x257 : S1x257.Broadcasts S1024x257
  slices_S1024x257_o0_256_S1024x1 : S1024x257.Slices ![0, 256] S1024x1
  slices_S1024x257_o0_0_S1024x256 : S1024x257.Slices ![0, 0] S1024x256
  shapeCasts_S1024x256_S1024x16x16 : S1024x256.ShapeCasts S1024x16x16
  reduces_S1024x16x16_S1024x16 : S1024x16x16.Reduces [1] S1024x16
  reduces_S1024x16_S1024 : S1024x16.Reduces [1] S1024
  shapeCasts_S1024_S1024x1 : S1024.ShapeCasts S1024x1
  concatenates_S1024x256_S1024x256_S1024x512_d1 : Shape.Concatenates [S1024x256, S1024x256] S1024x512 1
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  dot_S1024x512_S512x257_S1024x257_1_0_0_1_n_n_wf : DotDims.WF S1024x512 S512x257 S1024x257 [1] [0] [0] [1] [] []
  dot_S1024x512_S512x256_S1024x256_1_0_0_1_n_n_wf : DotDims.WF S1024x512 S512x256 S1024x256 [1] [0] [0] [1] [] []
  dot_S1024x256_S256x128_S1024x128_1_0_0_1_n_n_wf : DotDims.WF S1024x256 S256x128 S1024x128 [1] [0] [0] [1] [] []
  dot_S1024x128_S128x1_S1024x1_1_0_0_1_n_n_wf : DotDims.WF S1024x128 S128x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x512.size a
  hwx0_1 : ∀ i : grid0.Coords, EltTy.bits .f32 = 32 ∨ (Rect.block (s := S16384x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x257.size a ≤ S512x257.size a
  hwx0_2 : ∀ i : grid0.Coords, EltTy.bits .f32 = 32 ∨ (Rect.block (s := S512x257) S512x257.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x257.size a ≤ S1x257.size a
  hwx0_3 : ∀ i : grid0.Coords, EltTy.bits .f32 = 32 ∨ (Rect.block (s := S1x257) S1x257.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x257.size a ≤ S512x257.size a
  hwx0_4 : ∀ i : grid0.Coords, EltTy.bits .f32 = 32 ∨ (Rect.block (s := S512x257) S512x257.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x257.size a ≤ S1x257.size a
  hwx0_5 : ∀ i : grid0.Coords, EltTy.bits .f32 = 32 ∨ (Rect.block (s := S1x257) S1x257.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S512x256.size a
  hwx0_6 : ∀ i : grid0.Coords, EltTy.bits .f32 = 32 ∨ (Rect.block (s := S512x256) S512x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x128.size a ≤ S256x128.size a
  hwx0_8 : ∀ i : grid0.Coords, EltTy.bits .f32 = 32 ∨ (Rect.block (s := S256x128) S256x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x1.size a ≤ S128x1.size a
  hwx0_10 : ∀ i : grid0.Coords, EltTy.bits .f32 = 32 ∨ (Rect.block (s := S128x1) S128x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1024x1.size a ≤ S16384x1.size a
  hwx0_12 : ∀ i : grid0.Coords, EltTy.bits .f32 = 32 ∨ (Rect.block (s := S16384x1) S1024x1.size (cc0_transform_12 i) (hinb0_12 i)).WholeWords (EltTy.packing .f32)

variable [Facts₀]

def dot_S1024x512_S512x257_S1024x257_1_0_0_1_n_n : DotDims S1024x512 S512x257 S1024x257 where
  lhsContracting := [1]
  rhsContracting := [0]
  lhsNonContracting := [0]
  rhsNonContracting := [1]
  lhsBatch := []
  rhsBatch := []
  wf := dot_S1024x512_S512x257_S1024x257_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x257.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x257.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x257.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x257.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v5) S1024x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S16384x512 : Shape := ⟨2, ![16384, 512]⟩
abbrev S512x257 : Shape := ⟨2, ![512, 257]⟩
abbrev S257 : Shape := ⟨1, ![257]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S16384x257 : Shape := ⟨2, ![16384, 257]⟩
abbrev S1x257 : Shape := ⟨2, ![1, 257]⟩
abbrev S16384x1 : Shape := ⟨2, ![16384, 1]⟩
abbrev S16384 : Shape := ⟨1, ![16384]⟩
abbrev S16384x256 : Shape := ⟨2, ![16384, 256]⟩
abbrev S16384x16x16 : Shape := ⟨3, ![16384, 16, 16]⟩
abbrev S1x256 : Shape := ⟨2, ![1, 256]⟩
abbrev S_ : Shape := ⟨0, ![]⟩
abbrev S16384x128 : Shape := ⟨2, ![16384, 128]⟩
abbrev S1x128 : Shape := ⟨2, ![1, 128]⟩
abbrev S1x1 : Shape := ⟨2, ![1, 1]⟩

abbrev nBuf : Space → Nat
  | .hbm => 58
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S512x257, .f32⟩
  | .hbm, ⟨3, _⟩ => ⟨S257, .f32⟩
  | .hbm, ⟨4, _⟩ => ⟨S512x257, .f32⟩
  | .hbm, ⟨5, _⟩ => ⟨S257, .f32⟩
  | .hbm, ⟨6, _⟩ => ⟨S512x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S16384x257, .f32⟩
  | .hbm, ⟨13, _⟩ => ⟨S1x257, .f32⟩
  | .hbm, ⟨14, _⟩ => ⟨S16384x257, .f32⟩
  | .hbm, ⟨15, _⟩ => ⟨S16384x257, .f32⟩
  | .hbm, ⟨16, _⟩ => ⟨S16384x257, .f32⟩
  | .hbm, ⟨17, _⟩ => ⟨S1x257, .f32⟩
  | .hbm, ⟨18, _⟩ => ⟨S16384x257, .f32⟩
  | .hbm, ⟨19, _⟩ => ⟨S16384x257, .f32⟩
  | .hbm, ⟨20, _⟩ => ⟨S16384x1, .f32⟩
  | .hbm, ⟨21, _⟩ => ⟨S16384, .f32⟩
  | .hbm, ⟨22, _⟩ => ⟨S16384x1, .f32⟩
  | .hbm, ⟨23, _⟩ => ⟨S16384, .f32⟩
  | .hbm, ⟨24, _⟩ => ⟨S16384, .f32⟩
  | .hbm, ⟨25, _⟩ => ⟨S16384x256, .f32⟩
  | .hbm, ⟨26, _⟩ => ⟨S16384x16x16, .f32⟩
  | .hbm, ⟨27, _⟩ => ⟨S16384x256, .f32⟩
  | .hbm, ⟨28, _⟩ => ⟨S16384x16x16, .f32⟩
  | .hbm, ⟨29, _⟩ => ⟨S16384x16x16, .f32⟩
  | .hbm, ⟨30, _⟩ => ⟨S16384x256, .f32⟩
  | .hbm, ⟨31, _⟩ => ⟨S16384x256, .f32⟩
  | .hbm, ⟨32, _⟩ => ⟨S16384x256, .f32⟩
  | .hbm, ⟨33, _⟩ => ⟨S16384x512, .f32⟩
  | .hbm, ⟨34, _⟩ => ⟨S16384x256, .f32⟩
  | .hbm, ⟨35, _⟩ => ⟨S1x256, .f32⟩
  | .hbm, ⟨36, _⟩ => ⟨S16384x256, .f32⟩
  | .hbm, ⟨37, _⟩ => ⟨S16384x256, .f32⟩
  | .hbm, ⟨38, _⟩ => ⟨S_, .f32⟩
  | .hbm, ⟨39, _⟩ => ⟨S16384x256, .f32⟩
  | .hbm, ⟨40, _⟩ => ⟨S16384x256, .f32⟩
  | .hbm, ⟨41, _⟩ => ⟨S16384x128, .f32⟩
  | .hbm, ⟨42, _⟩ => ⟨S1x128, .f32⟩
  | .hbm, ⟨43, _⟩ => ⟨S16384x128, .f32⟩
  | .hbm, ⟨44, _⟩ => ⟨S16384x128, .f32⟩
  | .hbm, ⟨45, _⟩ => ⟨S_, .f32⟩
  | .hbm, ⟨46, _⟩ => ⟨S16384x128, .f32⟩
  | .hbm, ⟨47, _⟩ => ⟨S16384x128, .f32⟩
  | .hbm, ⟨48, _⟩ => ⟨S16384x1, .f32⟩
  | .hbm, ⟨49, _⟩ => ⟨S1x1, .f32⟩
  | .hbm, ⟨50, _⟩ => ⟨S16384x1, .f32⟩
  | .hbm, ⟨51, _⟩ => ⟨S16384x1, .f32⟩
  | .hbm, ⟨52, _⟩ => ⟨S16384x1, .f32⟩
  | .hbm, ⟨53, _⟩ => ⟨S16384x1, .f32⟩
  | .hbm, ⟨54, _⟩ => ⟨S_, .f32⟩
  | .hbm, ⟨55, _⟩ => ⟨S16384, .f32⟩
  | .hbm, ⟨56, _⟩ => ⟨S16384x1, .f32⟩
  | .hbm, ⟨57, _⟩ => ⟨S16384x1, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call0_cst : Ref sig .tc := ⟨.hbm, 38, rfl⟩
abbrev main_call0_v0 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call1_cst : Ref sig .tc := ⟨.hbm, 45, rfl⟩
abbrev main_call1_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]

class Facts₀ : Prop where
  bcast_S257_S1x257_1 : S257.BroadcastsInDim S1x257 (![1] : Fin 1 → Fin S1x257.rank)
  bcast_S1x257_S16384x257_0_1 : S1x257.BroadcastsInDim S16384x257 (![0, 1] : Fin 2 → Fin S16384x257.rank)
  slices_S16384x257_S16384x1_0_256 : S16384x257.Slices ![0, 256] S16384x1
  shapeCasts_S16384x1_S16384 : S16384x1.ShapeCasts S16384
  slices_S16384x257_S16384x256_0_0 : S16384x257.Slices ![0, 0] S16384x256
  shapeCasts_S16384x256_S16384x16x16 : S16384x256.ShapeCasts S16384x16x16
  shapeCasts_S16384x16x16_S16384x256 : S16384x16x16.ShapeCasts S16384x256
  concatenates_S16384x256_S16384x256_S16384x512_d1 : Shape.Concatenates [S16384x256, S16384x256] S16384x512 1
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S16384_S16384x1_0 : S16384.BroadcastsInDim S16384x1 (![0] : Fin 1 → Fin S16384x1.rank)
  reducesTo_S16384x256_S16384_d1 : S16384x256.ReducesTo [1] S16384
  h_S_ : 0 < S_.numel
  dot_S16384x512_S512x257_S16384x257_1_0_0_1_n_n_wf : DotDims.WF S16384x512 S512x257 S16384x257 [1] [0] [0] [1] [] []
  dot_S16384x16x16_S16384x16x16_S16384x16x16_2_2_1_1_0_0_wf : DotDims.WF S16384x16x16 S16384x16x16 S16384x16x16 [2] [2] [1] [1] [0] [0]
  dot_S16384x512_S512x256_S16384x256_1_0_0_1_n_n_wf : DotDims.WF S16384x512 S512x256 S16384x256 [1] [0] [0] [1] [] []
  dot_S16384x256_S256x128_S16384x128_1_0_0_1_n_n_wf : DotDims.WF S16384x256 S256x128 S16384x128 [1] [0] [0] [1] [] []
  dot_S16384x128_S128x1_S16384x1_1_0_0_1_n_n_wf : DotDims.WF S16384x128 S128x1 S16384x1 [1] [0] [0] [1] [] []

variable [Facts₀]

def dot_S16384x512_S512x257_S16384x257_1_0_0_1_n_n : DotDims S16384x512 S512x257 S16384x257 where
  lhsContracting := [1]
  rhsContracting := [0]
  lhsNonContracting := [0]
  rhsNonContracting := [1]
  lhsBatch := []
  rhsBatch := []
  wf := dot_S16384x512_S512x257_S16384x257_1_0_0_1_n_n_wf
def dot_S16384x16x16_S16384x16x16_S16384x16x16_2_2_1_1_0_0 : DotDims S16384x16x16 S16384x16x16 S16384x16x16 where
  lhsContracting := [2]
  rhsContracting := [2]
  lhsNonContracting := [1]
  rhsNonContracting := [1]
  lhsBatch := [0]
  rhsBatch := [0]
  wf := dot_S16384x16x16_S16384x16x16_S16384x16x16_2_2_1_1_0_0_wf
def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def dot_S16384x128_S128x1_S16384x1_1_0_0_1_n_n : DotDims S16384x128 S128x1 S16384x1 where
  lhsContracting := [1]
  rhsContracting := [0]
  lhsNonContracting := [0]
  rhsNonContracting := [1]
  lhsBatch := []
  rhsBatch := []
  wf := dot_S16384x128_S128x1_S16384x1_1_0_0_1_n_n_wf

class Facts : Prop extends Facts₀ where

variable [Facts]
-- ==== Proof.Spec.lean ====
/-
  One row of the two-tower factorization-machine network, as formulas on the extended reals.

  Every output entry depends on ONE row x of the first input, ONE row y of the second and on all the weights:
    m = x·Wm + bm,  u = y·Wu + bu                                   (257 entries each)
    mlp = relu(relu(cat(m[0..256), u[0..256))·W1 + b1)·W2 + b2)·W3 + b3   (one entry)
    out = (mlp + (m[256] + u[256])) + fm(m, u).
  The interaction term fm reads m[0..256) and u[0..256) as 16 × 16 tables M, U (entry (i, k) at 16·i + k). It is written
  two ways: FACTORED, Σ_k (Σ_i M i k)·(Σ_j U j k), and PAIRWISE, 0 + Σ_{n < 256} Σ_k M (n / 16) k · U (n % 16) k, the sum of
  all 256 dot products of a row of M with a row of U. The two agree when every entry is a real number, by distributivity
  (which fails on the extended reals at infinities: that is where finiteness of the inputs is used).
-/
import Idealize.ShloMosaic.PureOps.Ideal
import Idealize.ShloMosaic.Lib.ValueIdx

noncomputable section

open scoped BigOperators

namespace Cert.TwoTower

open Idealize.ShloMosaic Idealize.ShloMosaic.ValueIdx

/-! ## Rows, matrices and vectors out of arrays -/

/-- Row r of a two-axis array. -/
abbrev rowOf {R C : ℕ} (x : (⟨2, ![R, C]⟩ : Shape).Idx → EReal) (r : Fin R) : Fin C → EReal := fun k => x (ix2 r k)
/-- A two-axis array as a matrix. -/
abbrev matOf {R C : ℕ} (x : (⟨2, ![R, C]⟩ : Shape).Idx → EReal) : Fin R → Fin C → EReal := fun k n => x (ix2 k n)
/-- A one-axis array as a vector. -/
abbrev vecOf {C : ℕ} (x : (⟨1, ![C]⟩ : Shape).Idx → EReal) : Fin C → EReal := fun n => x (ix1 n)

/-! ## The formulas -/

/-- A dense layer on one row: x·W + b. -/
def dense {K N : ℕ} (x : Fin K → EReal) (W : Fin K → Fin N → EReal) (b : Fin N → EReal) (n : Fin N) : EReal :=
  (∑ k : Fin K, x k * W k n) + b n

/-- max(·, 0), entry by entry. -/
def relu {N : ℕ} (x : Fin N → EReal) (n : Fin N) : EReal := max (x n) 0

/-- The first 256 entries of m followed by the first 256 entries of u. -/
def cat (m u : Fin 257 → EReal) (k : Fin 512) : EReal :=
  if h : k.val < 256 then m ⟨k.val, by omega⟩ else u ⟨k.val - 256, by omega⟩

/-- Entry (i, k) of the 16 × 16 table laid out row-major in m's first 256 entries. -/
def tab (m : Fin 257 → EReal) (i k : Fin 16) : EReal := m ⟨16 * i.val + k.val, by omega⟩

/-- The interaction term, factored: Σ_k (Σ_i M i k)·(Σ_j U j k). -/
def fmFactored (m u : Fin 257 → EReal) : EReal := ∑ k : Fin 16, (∑ i : Fin 16, tab m i k) * (∑ j : Fin 16, tab u j k)

/-- The interaction term, pairwise: all 256 dot products M i · U j, summed from zero. -/
def fmPairs (m u : Fin 257 → EReal) : EReal :=
  0 + ∑ n : Fin 256, ∑ k : Fin 16, tab m ⟨n.val / 16, by omega⟩ k * tab u ⟨n.val % 16, by omega⟩ k

/-- The three-layer perceptron on cat(m, u): one number. -/
def mlp (m u : Fin 257 → EReal) (W1 : Fin 512 → Fin 256 → EReal) (b1 : Fin 256 → EReal) (W2 : Fin 256 → Fin 128 → EReal)
    (b2 : Fin 128 → EReal) (W3 : Fin 128 → Fin 1 → EReal) (b3 : Fin 1 → EReal) : EReal :=
  dense (relu (dense (relu (dense (cat m u) W1 b1)) W2 b2)) W3 b3 0

/-- One output entry from the two towers' rows m, u, given the interaction term. -/
def logitOf (fm : EReal) (m u : Fin 257 → EReal) (W1 : Fin 512 → Fin 256 → EReal) (b1 : Fin 256 → EReal)
    (W2 : Fin 256 → Fin 128 → EReal) (b2 : Fin 128 → EReal) (W3 : Fin 128 → Fin 1 → EReal) (b3 : Fin 1 → EReal) : EReal :=
  (mlp m u W1 b1 W2 b2 W3 b3 + (m 256 + u 256)) + fm

/-- One output entry, with the interaction term factored. -/
def logitFactored (x y : Fin 512 → EReal) (Wm : Fin 512 → Fin 257 → EReal) (bm : Fin 257 → EReal) (Wu : Fin 512 → Fin 257 → EReal)
    (bu : Fin 257 → EReal) (W1 : Fin 512 → Fin 256 → EReal) (b1 : Fin 256 → EReal) (W2 : Fin 256 → Fin 128 → EReal)
    (b2 : Fin 128 → EReal) (W3 : Fin 128 → Fin 1 → EReal) (b3 : Fin 1 → EReal) : EReal :=
  logitOf (fmFactored (dense x Wm bm) (dense y Wu bu)) (dense x Wm bm) (dense y Wu bu) W1 b1 W2 b2 W3 b3

/-- One output entry, with the interaction term pairwise. -/
def logitPairs (x y : Fin 512 → EReal) (Wm : Fin 512 → Fin 257 → EReal) (bm : Fin 257 → EReal) (Wu : Fin 512 → Fin 257 → EReal)
    (bu : Fin 257 → EReal) (W1 : Fin 512 → Fin 256 → EReal) (b1 : Fin 256 → EReal) (W2 : Fin 256 → Fin 128 → EReal)
    (b2 : Fin 128 → EReal) (W3 : Fin 128 → Fin 1 → EReal) (b3 : Fin 1 → EReal) : EReal :=
  logitOf (fmPairs (dense x Wm bm) (dense y Wu bu)) (dense x Wm bm) (dense y Wu bu) W1 b1 W2 b2 W3 b3

/-! ## The law over the reals -/

/-- A pair (i, j) of table rows as the position 16·i + j among 256. -/
def pairEquiv : Fin 16 × Fin 16 ≃ Fin 256 where
  toFun p := ⟨16 * p.1.val + p.2.val, by omega⟩
  invFun n := (⟨n.val / 16, by omega⟩, ⟨n.val % 16, by omega⟩)
  left_inv p := by
    apply Prod.ext <;> apply Fin.ext
    · show (16 * p.1.val + p.2.val) / 16 = p.1.val; omega
    · show (16 * p.1.val + p.2.val) % 16 = p.2.val; omega
  right_inv n := by
    apply Fin.ext
    show 16 * (n.val / 16) + n.val % 16 = n.val; omega

/-- Over the reals: the sum of all dot products of a row of M with a row of U is Σ_k (column sum of M)·(column sum of U). -/
theorem factored_eq_pairs_real (M U : Fin 16 → Fin 16 → ℝ) :
    ∑ k : Fin 16, (∑ i : Fin 16, M i k) * (∑ j : Fin 16, U j k)
      = ∑ n : Fin 256, ∑ k : Fin 16, M ⟨n.val / 16, by omega⟩ k * U ⟨n.val % 16, by omega⟩ k := by
  rw [← Equiv.sum_comp pairEquiv (fun n : Fin 256 => ∑ k : Fin 16, M ⟨n.val / 16, by omega⟩ k * U ⟨n.val % 16, by omega⟩ k),
    Fintype.sum_prod_type]
  have e : ∀ i j : Fin 16, (∑ k : Fin 16, M ⟨(pairEquiv (i, j)).val / 16, by omega⟩ k * U ⟨(pairEquiv (i, j)).val % 16, by omega⟩ k)
      = ∑ k : Fin 16, M i k * U j k := by
    intro i j
    have h1 : (⟨(pairEquiv (i, j)).val / 16, by omega⟩ : Fin 16) = i := Fin.ext (by
      show (16 * i.val + j.val) / 16 = i.val; omega)
    have h2 : (⟨(pairEquiv (i, j)).val % 16, by omega⟩ : Fin 16) = j := Fin.ext (by
      show (16 * i.val + j.val) % 16 = j.val; omega)
    rw [h1, h2]
  simp only [e]
  calc ∑ k : Fin 16, (∑ i : Fin 16, M i k) * (∑ j : Fin 16, U j k)
      = ∑ k : Fin 16, ∑ i : Fin 16, ∑ j : Fin 16, M i k * U j k := by
        refine Finset.sum_congr rfl fun k _ => ?_
        rw [Finset.sum_mul_sum]
    _ = ∑ i : Fin 16, ∑ k : Fin 16, ∑ j : Fin 16, M i k * U j k := Finset.sum_comm
    _ = ∑ i : Fin 16, ∑ j : Fin 16, ∑ k : Fin 16, M i k * U j k := Finset.sum_congr rfl fun i _ => Finset.sum_comm

/-! ## Real-valued functions, and the law on the extended reals -/

/-- The coercion of a finite real sum is the sum of the coercions. -/
theorem coe_sum {ι : Type} [Fintype ι] (f : ι → ℝ) : ((∑ i, f i : ℝ) : EReal) = ∑ i, (f i : EReal) := by
  classical
  induction (Finset.univ : Finset ι) using Finset.induction_on with
  | empty => simp
  | insert a s ha ih => rw [Finset.sum_insert ha, Finset.sum_insert ha, EReal.coe_add, ih]

/-- Every value is a real number. -/
def RealValued {α : Type} (f : α → EReal) : Prop := ∀ a, ∃ r : ℝ, f a = (r : EReal)

/-- A dense layer of real rows, weights and biases has real entries. -/
theorem dense_real {K N : ℕ} {x : Fin K → EReal} {W : Fin K → Fin N → EReal} {b : Fin N → EReal}
    (hx : RealValued x) (hW : ∀ k, RealValued (W k)) (hb : RealValued b) : RealValued (dense x W b) := by
  intro n
  choose x' hx' using hx
  choose W' hW' using hW
  choose b' hb' using hb
  refine ⟨(∑ k : Fin K, x' k * W' k n) + b' n, ?_⟩
  unfold dense
  simp only [hx', hW', hb', ← EReal.coe_mul, ← coe_sum, ← EReal.coe_add]

/-- On real-valued towers the factored interaction term is the pairwise one. -/
theorem fmFactored_eq_fmPairs {m u : Fin 257 → EReal} (hm : RealValued m) (hu : RealValued u) :
    fmFactored m u = fmPairs m u := by
  choose m' hm' using hm
  choose u' hu' using hu
  unfold fmFactored fmPairs tab
  simp only [hm', hu', ← EReal.coe_mul, ← coe_sum, zero_add]
  exact congrArg _ (factored_eq_pairs_real (fun i k => m' ⟨16 * i.val + k.val, by omega⟩) (fun i k => u' ⟨16 * i.val + k.val, by omega⟩))

/-- With real inputs the two forms of an output entry agree. -/
theorem logitFactored_eq_logitPairs {x y : Fin 512 → EReal} {Wm : Fin 512 → Fin 257 → EReal} {bm : Fin 257 → EReal}
    {Wu : Fin 512 → Fin 257 → EReal} {bu : Fin 257 → EReal}
    (hx : RealValued x) (hy : RealValued y) (hWm : ∀ k, RealValued (Wm k)) (hbm : RealValued bm)
    (hWu : ∀ k, RealValued (Wu k)) (hbu : RealValued bu)
    (W1 : Fin 512 → Fin 256 → EReal) (b1 : Fin 256 → EReal) (W2 : Fin 256 → Fin 128 → EReal)
    (b2 : Fin 128 → EReal) (W3 : Fin 128 → Fin 1 → EReal) (b3 : Fin 1 → EReal) :
    logitFactored x y Wm bm Wu bu W1 b1 W2 b2 W3 b3 = logitPairs x y Wm bm Wu bu W1 b1 W2 b2 W3 b3 := by
  unfold logitFactored logitPairs
  rw [fmFactored_eq_fmPairs (dense_real hx hWm hbm) (dense_real hy hWu hbu)]

end Cert.TwoTower

end
-- ==== Proof.LibOuterDot.lean ====
/-
  Two readings at an index, for any sizes, at the ideal values.

  * A block u of shape [R, n] and a block x of shape [R, m], each given a unit axis, broadcast against each other to
    [R, n, m], multiplied and flattened to [R, n·m]: entry (p, k) is u(p, k / m) · x(p, k % m) — the row-wise
    Kronecker product.
  * A matrix product [M, K] × [K, N] into a zero accumulator: entry (p, q) is Σ over k < K of A(p, k) · B(k, q), a sum
    over Fin K, given where the dimension numbers send an output index and a contraction index.
-/
import Idealize.ShloMosaic.Lib.ValueIdx
import Idealize.ShloMosaic.Lib.Pipeline.Value
import Idealize.ShloMosaic.PureOps.Ideal.Laws

noncomputable section

open scoped BigOperators

namespace Cert.LibOuterDot

open Idealize.ShloMosaic Idealize.ShloMosaic.ValueIdx

/-- The row-wise Kronecker product read at (p, k): u at column k / m times x at column k % m. -/
theorem outer_flat_apply (R n m N : ℕ) (hn : 1 < n) (hm : 1 < m) (hN : N = n * m)
    (u : (⟨2, ![R, n]⟩ : Shape).Idx → EReal) (x : (⟨2, ![R, m]⟩ : Shape).Idx → EReal)
    (h1 : (⟨2, ![R, n]⟩ : Shape).ShapeCasts ⟨3, ![R, n, 1]⟩)
    (h2 : (⟨2, ![R, m]⟩ : Shape).ShapeCasts ⟨3, ![R, 1, m]⟩)
    (h3 : (⟨3, ![R, n, 1]⟩ : Shape).Broadcasts ⟨3, ![R, n, m]⟩)
    (h4 : (⟨3, ![R, 1, m]⟩ : Shape).Broadcasts ⟨3, ![R, n, m]⟩)
    (h5 : (⟨3, ![R, n, m]⟩ : Shape).ShapeCasts ⟨2, ![R, N]⟩)
    (p : Fin R) (k : Fin N) (a : Fin n) (b : Fin m) (ha : a.val = k.val / m) (hb : b.val = k.val % m) :
    shapeCast ⟨2, ![R, N]⟩ (mulf (F := Ideal) (φ := .f32)
        (broadcastTo ⟨3, ![R, n, m]⟩ (shapeCast ⟨3, ![R, n, 1]⟩ u h1) h3)
        (broadcastTo ⟨3, ![R, n, m]⟩ (shapeCast ⟨3, ![R, 1, m]⟩ x h2) h4)) h5 (ix2 p k)
      = u (ix2 p a) * x (ix2 p b) := by
  subst hN
  refine (shapeCast_apply _ h5 (ix2 p k) (ix3 p a b) ?_).trans ?_
  · rw [Shape.rowMajor_val_three, Shape.rowMajor_val_two]
    show (p.val * n + a.val) * m + b.val = p.val * (n * m) + k.val
    have e : k.val / m * m + k.val % m = k.val := Nat.div_add_mod' _ _
    rw [ha, hb, Nat.add_mul, Nat.mul_assoc, Nat.add_assoc, e]
  · rw [mulf_apply]
    congr 1
    · refine (broadcastTo_apply _ h3 (ix3 p a b) (ix3 p a (0 : Fin 1)) ?_).trans ?_
      · intro ax
        match ax with
        | ⟨0, _⟩ =>
          show p.val = if R = 1 then 0 else p.val
          split
          · have := p.isLt; omega
          · rfl
        | ⟨1, _⟩ =>
          show a.val = if n = 1 then 0 else a.val
          rw [if_neg (by omega)]
        | ⟨2, _⟩ => rfl
      · refine shapeCast_apply u h1 _ (ix2 p a) ?_
        rw [Shape.rowMajor_val_three, Shape.rowMajor_val_two]
        show p.val * n + a.val = (p.val * n + a.val) * 1 + 0
        omega
    · refine (broadcastTo_apply _ h4 (ix3 p a b) (ix3 p (0 : Fin 1) b) ?_).trans ?_
      · intro ax
        match ax with
        | ⟨0, _⟩ =>
          show p.val = if R = 1 then 0 else p.val
          split
          · have := p.isLt; omega
          · rfl
        | ⟨1, _⟩ => rfl
        | ⟨2, _⟩ =>
          show b.val = if m = 1 then 0 else b.val
          rw [if_neg (by omega)]
      · refine shapeCast_apply x h2 _ (ix2 p b) ?_
        rw [Shape.rowMajor_val_three, Shape.rowMajor_val_two]
        show p.val * m + b.val = (p.val * 1 + 0) * m + b.val
        rw [Nat.mul_one, Nat.add_zero]

/-- With no batch axes and one free axis a on the left, the left operand's index has the output's coordinate b there,
    b the first output axis. -/
theorem lhs_free_val {sl sr so : Shape} (d : DotDims sl sr so) (a : Fin sl.rank) (b : Fin so.rank)
    (hlb : d.lhsBatch = []) (hln : d.lhsNonContracting = [a]) (hb : b.val = 0) (j : so.Idx) (k : d.contr.Idx) :
    (d.lhsIdx j k a).val = (j b).val := by
  have hnb : a ∉ d.lhsBatch := by rw [hlb]; exact List.not_mem_nil
  have hmn : a ∈ d.lhsNonContracting := by rw [hln]; exact List.mem_singleton.mpr rfl
  unfold DotDims.lhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hb])

/-- With no batch axes, one free axis on the left and one free axis a on the right, the right operand's index has the
    output's coordinate b there, b the second output axis. -/
theorem rhs_free_val {sl sr so : Shape} (d : DotDims sl sr so) (a : Fin sr.rank) (b : Fin so.rank) (a' : Fin sl.rank)
    (hlb : d.lhsBatch = []) (hrb : d.rhsBatch = []) (hln : d.lhsNonContracting = [a']) (hrn : d.rhsNonContracting = [a])
    (hb : b.val = 1) (j : so.Idx) (k : d.contr.Idx) :
    (d.rhsIdx j k a).val = (j b).val := by
  have hnb : a ∉ d.rhsBatch := by rw [hrb]; exact List.not_mem_nil
  have hmn : a ∈ d.rhsNonContracting := by rw [hrn]; exact List.mem_singleton.mpr rfl
  unfold DotDims.rhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hrn, hb])

/-- A matrix product into the zero accumulator read at (p, q), given where the dimension numbers send the indices:
    the sum over k < K of A(p, k) · B(k, q). -/
theorem matmul_zero_ix2_of {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ i q, (d.lhsIdx i q 0).val = (i 0).val) (l1 : ∀ i q, (d.lhsIdx i q 1).val = (q ⟨0, by omega⟩).val)
    (r0 : ∀ i q, (d.rhsIdx i q 0).val = (q ⟨0, by omega⟩).val) (r1 : ∀ i q, (d.rhsIdx i q 1).val = (i 1).val)
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er]

/-- A plain matrix product — left operand contracted on its second axis, right on its first, no batch axes — into
    the zero accumulator, read at (p, q): the sum over k < K of A(p, k) · B(k, q). -/
theorem matmul_zero_ix2 {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) :=
  matmul_zero_ix2_of d hr hs
    (fun i q => lhs_free_val d 0 0 hlb hln rfl i q)
    (fun i q => d.lhsIdx_val_of_single hlc i q)
    (fun i q => d.rhsIdx_val_of_single hrc i q)
    (fun i q => rhs_free_val d 1 1 0 hlb hrb hln hrn rfl i q)
    prec A B p q

end Cert.LibOuterDot

end
-- ==== Proof.RowLemmas.lean ====
/-
  Three readings at an index, for any number of rows, at the ideal values:
  * a dense layer written as  matmul(h, W) into the zero accumulator, plus a [1, N] bias broadcast over the rows: entry
    (p, n) is  Σ_k h(p, k)·W(k, n) + b(0, n), the layer applied to row p (a change of float format is the identity);
  * the maximum with the zero splat, row by row: relu of the row;
  * two [R, 256] blocks joined along the columns: row p is the first block's row p followed by the second's.
-/
import proofs.«150822_j72189810311759_1_alg».proof.Proof.Spec
import proofs.«150822_j72189810311759_1_alg».proof.Proof.LibOuterDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.TwoTower

open Idealize.ShloMosaic Idealize.ShloMosaic.ValueIdx

/-- A dense layer read at (p, n): the layer of Spec applied to row p of the left operand. -/
theorem layer_at {M K N : ℕ} (d : DotDims ⟨2, ![M, K]⟩ ⟨2, ![K, N]⟩ ⟨2, ![M, N]⟩) (hr : d.contr.rank = 1)
    (hs : d.contr.size ⟨0, by omega⟩ = K) (hlc : d.lhsContracting = [1]) (hrc : d.rhsContracting = [0])
    (hln : d.lhsNonContracting = [0]) (hrn : d.rhsNonContracting = [1]) (hlb : d.lhsBatch = []) (hrb : d.rhsBatch = [])
    (h : FVec Ideal ⟨2, ![M, K]⟩ .f32) (W : FVec Ideal ⟨2, ![K, N]⟩ .f32) (b : FVec Ideal ⟨2, ![1, N]⟩ .f32)
    (hbits : FTy.bf16.bits < FTy.f32.bits)
    (hsc : (⟨2, ![1, N]⟩ : Shape).ShapeCasts ⟨2, ![1, N]⟩) (hbc : (⟨2, ![1, N]⟩ : Shape).Broadcasts ⟨2, ![M, N]⟩)
    (p : Fin M) (n : Fin N) :
    addf (matmul d none (truncf .bf16 h hbits) (truncf .bf16 W hbits) (constant ⟨2, ![M, N]⟩ .f32 0x00000000#32))
        (broadcastTo ⟨2, ![M, N]⟩ (shapeCast ⟨2, ![1, N]⟩ b hsc) hbc) (ix2 p n)
      = dense (rowOf h p) (matOf W) (rowOf b 0) n := by
  unfold dense
  refine congrArg₂ (· + ·) ?_ ?_
  · exact Cert.LibOuterDot.matmul_zero_ix2 d hr hs hlc hrc hln hrn hlb hrb none _ _ p n
  · rw [shapeCast_self]
    exact broadcastTo_1b_ab_apply b hbc p n

/-- The maximum with the zero splat, on row p: relu of the row. -/
theorem relu_row {M K : ℕ} (v : FVec Ideal ⟨2, ![M, K]⟩ .f32) (p : Fin M) :
    rowOf (maximumf v (broadcast ⟨2, ![M, K]⟩ (Scalar.ofBits (F := Ideal) .f32 0x00000000#32))) p = relu (rowOf v p) := by
  funext k
  show max (v (ix2 p k)) (Ideal.ofBits .f32 0x00000000#32) = max (v (ix2 p k)) 0
  rw [Ideal.ofBits_zero_f32]

/-- Two [R, 256] blocks joined along the columns, on row p: the first block's row then the second's. -/
theorem concat_row {R : ℕ} (a b : (⟨2, ![R, 256]⟩ : Shape).Idx → EReal)
    (h : Shape.Concatenates [(⟨2, ![R, 256]⟩ : Shape), ⟨2, ![R, 256]⟩] ⟨2, ![R, 512]⟩ 1) (p : Fin R) (k : Fin 512) :
    concatenate ⟨2, ![R, 512]⟩ 1 [⟨⟨2, ![R, 256]⟩, a⟩, ⟨⟨2, ![R, 256]⟩, b⟩] h (ix2 p k)
      = if hk : k.val < 256 then a (ix2 p ⟨k.val, hk⟩) else b (ix2 p ⟨k.val - 256, by omega⟩) := by
  split
  · next hk =>
    exact concatenate_pair_apply_left 1 a b h (ix2 p k) rfl (ix2 p ⟨k.val, hk⟩) (fun c => match c with
      | ⟨0, _⟩ => rfl
      | ⟨1, _⟩ => rfl)
  · next hk =>
    exact concatenate_pair_apply_right 1 a b h (ix2 p k) rfl rfl (ix2 p ⟨k.val - 256, by omega⟩) (fun c hc => match c with
      | ⟨0, _⟩ => rfl
      | ⟨1, _⟩ => absurd rfl hc) (by show (k.val - 256) + 256 = k.val; omega)

end Cert.TwoTower

end
-- ==== Proof.KernelRow.lean ====
/-
  The kernel body's stored value, read at row p of a block: the row-wise formula of Spec with the interaction term
  FACTORED, applied to row p of the two streamed blocks and to the resident weights and biases.

  The body computes, on a block of 1024 rows: the two towers (a matmul plus a broadcast bias each, 257 columns); their last
  column, added; their first 256 columns, (a) cast to [1024, 16, 16], summed over the middle axis, multiplied and summed
  over the last axis — Σ_k (Σ_i M i k)(Σ_j U j k) —, and (b) joined into 512 columns and sent through three dense layers
  with relu between them; and the sum (mlp + last columns) + interaction.
-/
import proofs.«150822_j72189810311759_1_alg».proof.Proof.Gen.KernelIdeal.Skeleton
import proofs.«150822_j72189810311759_1_alg».proof.Proof.RowLemmas

noncomputable section

open scoped BigOperators

namespace Cert.KernelIdeal.Row

open Cert.KernelIdeal Cert.KernelIdeal.Gen Idealize.ShloMosaic Idealize.ShloMosaic.TcCoe Idealize.ShloMosaic.ValueIdx
open Cert.TwoTower

/-- A tower, x·W + b with the bias broadcast over the rows, at (p, n): the dense layer on row p. -/
theorem tower_at (x : Vec Ideal S1024x512 .f32) (W : Vec Ideal S512x257 .f32) (b : Vec Ideal S1x257 .f32) (p : Fin 1024)
    (n : Fin 257) : k0_pay2 x W b (ix2 p n) = dense (rowOf x p) (matOf W) (rowOf b 0) n := by
  unfold k0_pay2
  exact layer_at _ rfl rfl rfl rfl rfl rfl rfl rfl x W b _ _ _ p n

/-- The second tower is the same function of its own operands. -/
theorem tower2_eq (x : Vec Ideal S1024x512 .f32) (W : Vec Ideal S512x257 .f32) (b : Vec Ideal S1x257 .f32) :
    k0_pay3 x W b = k0_pay2 x W b := rfl

/-- The first 256 columns of a tower. -/
theorem head_at (x : Vec Ideal S1024x512 .f32) (W : Vec Ideal S512x257 .f32) (b : Vec Ideal S1x257 .f32) (p : Fin 1024)
    (c : Fin 256) : k0_pay5 x W b (ix2 p c) = k0_pay2 x W b (ix2 p ⟨c.val, by omega⟩) := by
  unfold k0_pay5
  exact extractStridedSlice_apply _ _ _ (ix2 p c) (ix2 p ⟨c.val, by omega⟩) (fun a => match a with
    | ⟨0, _⟩ => by show p.val = 0 + p.val; omega
    | ⟨1, _⟩ => by show c.val = 0 + c.val; omega)

theorem head2_at (x : Vec Ideal S1024x512 .f32) (W : Vec Ideal S512x257 .f32) (b : Vec Ideal S1x257 .f32) (p : Fin 1024)
    (c : Fin 256) : k0_pay6 x W b (ix2 p c) = k0_pay2 x W b (ix2 p ⟨c.val, by omega⟩) := by
  unfold k0_pay6
  exact extractStridedSlice_apply _ _ _ (ix2 p c) (ix2 p ⟨c.val, by omega⟩) (fun a => match a with
    | ⟨0, _⟩ => by show p.val = 0 + p.val; omega
    | ⟨1, _⟩ => by show c.val = 0 + c.val; omega)

/-- The two towers' last columns, added. -/
theorem last_at (x0 x1 : Vec Ideal S1024x512 .f32) (W0 W1 : Vec Ideal S512x257 .f32) (b0 b1 : Vec Ideal S1x257 .f32)
    (p : Fin 1024) (q : Fin 1) :
    k0_pay4 x0 x1 W0 W1 b0 b1 (ix2 p q) = k0_pay2 x0 W0 b0 (ix2 p (256 : Fin 257)) + k0_pay2 x1 W1 b1 (ix2 p (256 : Fin 257)) := by
  unfold k0_pay4
  refine congrArg₂ (· + ·) ?_ ?_
  · exact extractStridedSlice_apply _ _ _ (ix2 p q) (ix2 p (256 : Fin 257)) (fun a => match a with
      | ⟨0, _⟩ => by show p.val = 0 + p.val; omega
      | ⟨1, _⟩ => by show 256 = 256 + q.val; omega)
  · exact extractStridedSlice_apply _ _ _ (ix2 p q) (ix2 p (256 : Fin 257)) (fun a => match a with
      | ⟨0, _⟩ => by show p.val = 0 + p.val; omega
      | ⟨1, _⟩ => by show 256 = 256 + q.val; omega)

/-- A [1024, 256] block cast to [1024, 16, 16] and summed over the middle axis, at (p, k): the column sum Σ_i v(p, 16·i + k). -/
theorem colsum_at (v : FVec Ideal S1024x256 .f32) (hsc : S1024x256.ShapeCasts S1024x16x16)
    (hred : S1024x16x16.Reduces [1] S1024x16) (p : Fin 1024) (k : Fin 16) :
    multiReduction (F := Ideal) .add [1] S1024x16 (shapeCast S1024x16x16 v hsc) 0x00000000#32 hred (.inl rfl) rfl (ix2 p k)
      = ∑ i : Fin 16, v (ix2 p ⟨16 * i.val + k.val, by omega⟩) := by
  refine (Ideal.multiReduction_add_single _ _ hred _ _ (ix2 p k)).trans ?_
  refine Finset.sum_congr rfl fun (i : Fin 16) _ => ?_
  refine shapeCast_apply v hsc _ (ix2 p ⟨16 * i.val + k.val, by omega⟩) ?_
  rw [Shape.rowMajor_val_two, Shape.rowMajor_val_three]
  show p.val * 256 + (16 * i.val + k.val) = (p.val * 16 + i.val) * 16 + k.val
  omega

/-- The interaction term of two [1024, 256] blocks at row p, factored. -/
theorem fm_at (a b : FVec Ideal S1024x256 .f32) (hsc : S1024x256.ShapeCasts S1024x16x16)
    (hred : S1024x16x16.Reduces [1] S1024x16) (hred2 : S1024x16.Reduces [1] S1024) (hsc2 : S1024.ShapeCasts S1024x1)
    (p : Fin 1024) (q : Fin 1) :
    shapeCast S1024x1 (multiReduction (F := Ideal) .add [1] S1024
        (mulf (multiReduction .add [1] S1024x16 (shapeCast S1024x16x16 a hsc) 0x00000000#32 hred (.inl rfl) rfl)
          (multiReduction .add [1] S1024x16 (shapeCast S1024x16x16 b hsc) 0x00000000#32 hred (.inl rfl) rfl))
        0x00000000#32 hred2 (.inl rfl) rfl) hsc2 (ix2 p q)
      = ∑ k : Fin 16, (∑ i : Fin 16, a (ix2 p ⟨16 * i.val + k.val, by omega⟩)) * (∑ j : Fin 16, b (ix2 p ⟨16 * j.val + k.val, by omega⟩)) := by
  refine (shapeCast_apply _ hsc2 (ix2 p q) (ix1 p) ?_).trans ?_
  · rw [Shape.rowMajor_val_one, Shape.rowMajor_val_two]
    show p.val = p.val * 1 + q.val
    omega
  refine (Ideal.multiReduction_add_single _ _ hred2 _ _ (ix1 p)).trans ?_
  refine Finset.sum_congr rfl fun (k : Fin 16) _ => ?_
  have e : hred2.lift (ix1 p) k = ix2 p k := funext fun c => Fin.ext (by
    match c with
    | ⟨0, _⟩ => rfl
    | ⟨1, _⟩ => rfl)
  rw [e]
  refine (mulf_apply _ _ _).trans ?_
  exact congrArg₂ (· * ·) (colsum_at a hsc hred p k) (colsum_at b hsc hred p k)

/-- The body's interaction term at row p: factored, of the two towers' rows. -/
theorem inter_at (x0 x1 : Vec Ideal S1024x512 .f32) (W0 W1 : Vec Ideal S512x257 .f32) (b0 b1 : Vec Ideal S1x257 .f32)
    (p : Fin 1024) (q : Fin 1) :
    k0_pay7 x0 x1 W0 W1 b0 b1 (ix2 p q)
      = fmFactored (dense (rowOf x0 p) (matOf W0) (rowOf b0 0)) (dense (rowOf x1 p) (matOf W1) (rowOf b1 0)) := by
  unfold k0_pay7
  refine (fm_at _ _ _ _ _ _ p q).trans ?_
  unfold fmFactored tab
  refine Finset.sum_congr rfl fun k _ => ?_
  refine congrArg₂ (· * ·) (Finset.sum_congr rfl fun i _ => ?_) (Finset.sum_congr rfl fun j _ => ?_)
  · exact (head_at x0 W0 b0 p ⟨16 * i.val + k.val, by omega⟩).trans (tower_at x0 W0 b0 p _)
  · exact (head2_at x1 W1 b1 p ⟨16 * j.val + k.val, by omega⟩).trans (tower_at x1 W1 b1 p _)

/-- The two towers' first 256 columns joined, on row p. -/
theorem cat_at (x0 x1 : Vec Ideal S1024x512 .f32) (W0 W1 : Vec Ideal S512x257 .f32) (b0 b1 : Vec Ideal S1x257 .f32)
    (h : Shape.Concatenates [S1024x256, S1024x256] S1024x512 1) (p : Fin 1024) :
    rowOf (concatenate S1024x512 1 [⟨S1024x256, k0_pay5 x0 W0 b0⟩, ⟨S1024x256, k0_pay6 x1 W1 b1⟩] h) p
      = cat (dense (rowOf x0 p) (matOf W0) (rowOf b0 0)) (dense (rowOf x1 p) (matOf W1) (rowOf b1 0)) := by
  funext k
  refine (concat_row _ _ h p k).trans ?_
  unfold cat
  by_cases hk : k.val < 256
  · rw [dif_pos hk, dif_pos hk]
    exact (head_at x0 W0 b0 p ⟨k.val, hk⟩).trans (tower_at x0 W0 b0 p _)
  · rw [dif_neg hk, dif_neg hk]
    exact (head2_at x1 W1 b1 p ⟨k.val - 256, by omega⟩).trans (tower_at x1 W1 b1 p _)

/-- THE STORED VALUE at row p of the block: the row-wise formula, interaction term factored, of row p of the two streamed
    blocks and of the weights and biases. -/
theorem out_at (x0 x1 : Vec Ideal S1024x512 .f32) (x2 : Vec Ideal S512x257 .f32) (x3 : Vec Ideal S1x257 .f32)
    (x4 : Vec Ideal S512x257 .f32) (x5 : Vec Ideal S1x257 .f32) (x6 : Vec Ideal S512x256 .f32) (x7 : Vec Ideal S1x256 .f32)
    (x8 : Vec Ideal S256x128 .f32) (x9 : Vec Ideal S1x128 .f32) (x10 : Vec Ideal S128x1 .f32) (x11 : Vec Ideal S1x1 .f32)
    (p : Fin 1024) (q : Fin 1) :
    k0_pay1 (k0_pay4 x0 x1 x2 x4 x3 x5) (k0_pay7 x0 x1 x2 x4 x3 x5) (k0_pay8 x0 x1 x2 x4 x3 x5 x6) (k0_pay9 x7) x8 x9 x10 x11 (ix2 p q)
      = logitFactored (rowOf x0 p) (rowOf x1 p) (matOf x2) (rowOf x3 0) (matOf x4) (rowOf x5 0) (matOf x6) (rowOf x7 0)
          (matOf x8) (rowOf x9 0) (matOf x10) (rowOf x11 0) := by
  unfold k0_pay1 k0_pay8 k0_pay9 logitFactored logitOf mlp
  refine congrArg₂ (· + ·) (congrArg₂ (· + ·) ?_ ?_) ?_
  · obtain rfl : q = 0 := Fin.ext (by omega)
    refine (layer_at _ rfl rfl rfl rfl rfl rfl rfl rfl _ _ _ _ _ _ p 0).trans ?_
    refine congrArg (fun r => dense r (matOf x10) (rowOf x11 0) 0) ?_
    refine (relu_row _ p).trans (congrArg relu ?_)
    funext n
    refine (layer_at _ rfl rfl rfl rfl rfl rfl rfl rfl _ _ _ _ _ _ p n).trans ?_
    refine congrArg (fun r => dense r (matOf x8) (rowOf x9 0) n) ?_
    refine (relu_row _ p).trans (congrArg relu ?_)
    funext n'
    refine (layer_at _ rfl rfl rfl rfl rfl rfl rfl rfl _ _ _ _ _ _ p n').trans ?_
    exact congrArg (fun r => dense r (matOf x6) (rowOf x7 0) n') (cat_at x0 x1 x2 x4 x3 x5 _ p)
  · refine (last_at x0 x1 x2 x4 x3 x5 p q).trans ?_
    exact congrArg₂ (· + ·) (tower_at x0 x2 x3 p _) (tower_at x1 x4 x5 p _)
  · exact inter_at x0 x1 x2 x4 x3 x5 p q

end Cert.KernelIdeal.Row

end
-- ==== Proof.Result.lean ====
/-
  The result as ONE function of the twelve argument arrays: entry (b, ·) of the [16384, 1] result is the row-wise formula
  applied to row b of the two inputs and to the weights and biases. Two spellings, by the form of the interaction term;
  they agree when the six arrays that feed the towers hold real numbers.
-/
import proofs.«150822_j72189810311759_1_alg».proof.Proof.Spec

noncomputable section

namespace Cert.TwoTower

open Idealize.ShloMosaic Idealize.ShloMosaic.ValueIdx

/-- The result array with the interaction term factored. -/
def resultFactored (a0 a1 : (⟨2, ![16384, 512]⟩ : Shape).Idx → EReal) (a2 : (⟨2, ![512, 257]⟩ : Shape).Idx → EReal)
    (a3 : (⟨1, ![257]⟩ : Shape).Idx → EReal) (a4 : (⟨2, ![512, 257]⟩ : Shape).Idx → EReal) (a5 : (⟨1, ![257]⟩ : Shape).Idx → EReal)
    (a6 : (⟨2, ![512, 256]⟩ : Shape).Idx → EReal) (a7 : (⟨1, ![256]⟩ : Shape).Idx → EReal)
    (a8 : (⟨2, ![256, 128]⟩ : Shape).Idx → EReal) (a9 : (⟨1, ![128]⟩ : Shape).Idx → EReal)
    (a10 : (⟨2, ![128, 1]⟩ : Shape).Idx → EReal) (a11 : (⟨1, ![1]⟩ : Shape).Idx → EReal) :
    (⟨2, ![16384, 1]⟩ : Shape).Idx → EReal := fun i =>
  logitFactored (rowOf a0 (i 0)) (rowOf a1 (i 0)) (matOf a2) (vecOf a3) (matOf a4) (vecOf a5) (matOf a6) (vecOf a7)
    (matOf a8) (vecOf a9) (matOf a10) (vecOf a11)

/-- The result array with the interaction term pairwise. -/
def resultPairs (a0 a1 : (⟨2, ![16384, 512]⟩ : Shape).Idx → EReal) (a2 : (⟨2, ![512, 257]⟩ : Shape).Idx → EReal)
    (a3 : (⟨1, ![257]⟩ : Shape).Idx → EReal) (a4 : (⟨2, ![512, 257]⟩ : Shape).Idx → EReal) (a5 : (⟨1, ![257]⟩ : Shape).Idx → EReal)
    (a6 : (⟨2, ![512, 256]⟩ : Shape).Idx → EReal) (a7 : (⟨1, ![256]⟩ : Shape).Idx → EReal)
    (a8 : (⟨2, ![256, 128]⟩ : Shape).Idx → EReal) (a9 : (⟨1, ![128]⟩ : Shape).Idx → EReal)
    (a10 : (⟨2, ![128, 1]⟩ : Shape).Idx → EReal) (a11 : (⟨1, ![1]⟩ : Shape).Idx → EReal) :
    (⟨2, ![16384, 1]⟩ : Shape).Idx → EReal := fun i =>
  logitPairs (rowOf a0 (i 0)) (rowOf a1 (i 0)) (matOf a2) (vecOf a3) (matOf a4) (vecOf a5) (matOf a6) (vecOf a7)
    (matOf a8) (vecOf a9) (matOf a10) (vecOf a11)

/-- With real tower inputs the two spellings are one array. -/
theorem resultFactored_eq_resultPairs (a0 a1 : (⟨2, ![16384, 512]⟩ : Shape).Idx → EReal) (a2 : (⟨2, ![512, 257]⟩ : Shape).Idx → EReal)
    (a3 : (⟨1, ![257]⟩ : Shape).Idx → EReal) (a4 : (⟨2, ![512, 257]⟩ : Shape).Idx → EReal) (a5 : (⟨1, ![257]⟩ : Shape).Idx → EReal)
    (a6 : (⟨2, ![512, 256]⟩ : Shape).Idx → EReal) (a7 : (⟨1, ![256]⟩ : Shape).Idx → EReal)
    (a8 : (⟨2, ![256, 128]⟩ : Shape).Idx → EReal) (a9 : (⟨1, ![128]⟩ : Shape).Idx → EReal)
    (a10 : (⟨2, ![128, 1]⟩ : Shape).Idx → EReal) (a11 : (⟨1, ![1]⟩ : Shape).Idx → EReal)
    (h0 : RealValued a0) (h1 : RealValued a1) (h2 : RealValued a2) (h3 : RealValued a3) (h4 : RealValued a4) (h5 : RealValued a5) :
    resultFactored a0 a1 a2 a3 a4 a5 a6 a7 a8 a9 a10 a11 = resultPairs a0 a1 a2 a3 a4 a5 a6 a7 a8 a9 a10 a11 := by
  funext i
  unfold resultFactored resultPairs
  exact logitFactored_eq_logitPairs (fun k => h0 _) (fun k => h1 _) (fun k n => h2 _) (fun n => h3 _) (fun k n => h4 _)
    (fun n => h5 _) _ _ _ _ _ _

end Cert.TwoTower

end
-- ==== Proof.KernelArray.lean ====
/-
  From blocks to the array. The grid has 16 points; point t stages rows [1024·t, 1024·t + 1024) of the two streamed inputs
  and writes rows [1024·t, 1024·t + 1024) of the result, while every weight and bias window is the whole array at every
  point (the biases as [1, N] arrays, reshaped by the host before the call). So what point t writes back is block t of the
  whole-array function (interaction term factored), the sixteen blocks cover the result, and the result array ends
  holding that function of the arguments.
-/
import proofs.«150822_j72189810311759_1_alg».proof.Proof.Gen.KernelIdeal.Value
import proofs.«150822_j72189810311759_1_alg».proof.Proof.KernelRow
import proofs.«150822_j72189810311759_1_alg».proof.Proof.Result
import Idealize.ShloMosaic.Lib.StableHlo.Run
import Idealize.ShloMosaic.Lib.ValueLayout

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.TwoTower
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the grid: the streamed windows and the result window sit at block (t, 0); every
    other window at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_12.index t (0 : Fin 2) = t.val ∧ win0_12.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0 :=
  (by decide +kernel : ∀ t : Fin grid0.N, _)

theorem t_lt (t : Fin cfg0.N) : t.val < 16 := lt_of_lt_of_eq t.isLt N_0

/-- A bias as the region finds it: the [N] argument reshaped to [1, N] by the host, read at (0, n). -/
theorem bias3_at (c : Dev nD) (n : Fin 257) : V m c main_v0 (ix2 (0 : Fin 1) n) = m ((c : Thread nD τ).loc main_arg3) (ix1 n) := by
  have e : (V m c main_v0 : S1x257.Idx → EReal) = shapeCast S1x257 (m ((c : Thread nD τ).loc main_arg3)) shapeCasts_S257_S1x257 := by
    dsimp only [Gen.V, Gen.hostOps0]; after_results; rfl
  rw [e]
  exact shapeCast_a_1a_apply _ _ 0 n

theorem bias5_at (c : Dev nD) (n : Fin 257) : V m c main_v1 (ix2 (0 : Fin 1) n) = m ((c : Thread nD τ).loc main_arg5) (ix1 n) := by
  have e : (V m c main_v1 : S1x257.Idx → EReal) = shapeCast S1x257 (m ((c : Thread nD τ).loc main_arg5)) shapeCasts_S257_S1x257 := by
    dsimp only [Gen.V, Gen.hostOps0]; after_results; rfl
  rw [e]
  exact shapeCast_a_1a_apply _ _ 0 n

theorem bias7_at (c : Dev nD) (n : Fin 256) : V m c main_v2 (ix2 (0 : Fin 1) n) = m ((c : Thread nD τ).loc main_arg7) (ix1 n) := by
  have e : (V m c main_v2 : S1x256.Idx → EReal) = shapeCast S1x256 (m ((c : Thread nD τ).loc main_arg7)) shapeCasts_S256_S1x256 := by
    dsimp only [Gen.V, Gen.hostOps0]; after_results; rfl
  rw [e]
  exact shapeCast_a_1a_apply _ _ 0 n

theorem bias9_at (c : Dev nD) (n : Fin 128) : V m c main_v3 (ix2 (0 : Fin 1) n) = m ((c : Thread nD τ).loc main_arg9) (ix1 n) := by
  have e : (V m c main_v3 : S1x128.Idx → EReal) = shapeCast S1x128 (m ((c : Thread nD τ).loc main_arg9)) shapeCasts_S128_S1x128 := by
    dsimp only [Gen.V, Gen.hostOps0]; after_results; rfl
  rw [e]
  exact shapeCast_a_1a_apply _ _ 0 n

theorem bias11_at (c : Dev nD) (n : Fin 1) : V m c main_v4 (ix2 (0 : Fin 1) n) = m ((c : Thread nD τ).loc main_arg11) (ix1 n) := by
  have e : (V m c main_v4 : S1x1.Idx → EReal) = shapeCast S1x1 (m ((c : Thread nD τ).loc main_arg11)) shapeCasts_S1_S1x1 := by
    dsimp only [Gen.V, Gen.hostOps0]; after_results; rfl
  rw [e]
  exact shapeCast_a_1a_apply _ _ 0 n

/-- Point t's block of the first streamed input, row p: row 1024·t + p of the array. -/
theorem blk0_at (c : Dev nD) (t : Fin cfg0.N) (p : Fin 1024) (k : Fin 512) :
    iblk m c 0 t (ix2 p k) = V m c main_arg0 (ix2 ⟨t.val * 1024 + p.val, by have := t_lt t; omega⟩ k) := by
  obtain ⟨e0, e1, -⟩ := idx_facts t
  show V m c main_arg0 (((cfg0.win 0).blk t).view.emb (ix2 p k)) = _
  refine congrArg _ (funext fun a => Fin.ext ?_)
  match a with
  | ⟨0, _⟩ => show win0_0.index t (0 : Fin 2) * 1024 + 1 * p.val = t.val * 1024 + p.val; omega
  | ⟨1, _⟩ => show win0_0.index t (1 : Fin 2) * 512 + 1 * k.val = k.val; omega

/-- Point t's block of the second streamed input, row p: row 1024·t + p of the array. -/
theorem blk1_at (c : Dev nD) (t : Fin cfg0.N) (p : Fin 1024) (k : Fin 512) :
    iblk m c 1 t (ix2 p k) = V m c main_arg1 (ix2 ⟨t.val * 1024 + p.val, by have := t_lt t; omega⟩ k) := by
  obtain ⟨e0a, e0b, e1a, e1b, e12a, e12b, e2a, e2b, e3a, e3b, e4a, e4b, e5a, e5b, e6a, e6b, e7a, e7b, e8a, e8b, e9a, e9b, e10a, e10b, e11a, e11b⟩ := idx_facts t
  show V m c main_arg1 (((cfg0.win 1).blk t).view.emb (ix2 p k)) = _
  refine congrArg _ (funext fun a => Fin.ext ?_)
  match a with
  | ⟨0, _⟩ => show win0_1.index t (0 : Fin 2) * 1024 + 1 * p.val = t.val * 1024 + p.val; omega
  | ⟨1, _⟩ => show win0_1.index t (1 : Fin 2) * 512 + 1 * k.val = k.val; omega

/-! Every other window's block is its whole array, at every point. -/

theorem blk2_eq (c : Dev nD) (t : Fin cfg0.N) : (iblk m c 2 t : S512x257.Idx → EReal) = V m c main_arg2 := by
  obtain ⟨e0a, e0b, e1a, e1b, e12a, e12b, e2a, e2b, e3a, e3b, e4a, e4b, e5a, e5b, e6a, e6b, e7a, e7b, e8a, e8b, e9a, e9b, e10a, e10b, e11a, e11b⟩ := idx_facts t
  funext y
  show V m c main_arg2 (((cfg0.win 2).blk t).view.emb y) = _
  refine congrArg _ (funext fun a => Fin.ext ?_)
  match a with
  | ⟨0, _⟩ => show win0_2.index t (0 : Fin 2) * 512 + 1 * (y 0).val = (y 0).val; omega
  | ⟨1, _⟩ => show win0_2.index t (1 : Fin 2) * 257 + 1 * (y 1).val = (y 1).val; omega

theorem blk3_eq (c : Dev nD) (t : Fin cfg0.N) : (iblk m c 3 t : S1x257.Idx → EReal) = V m c main_v0 := by
  obtain ⟨e0a, e0b, e1a, e1b, e12a, e12b, e2a, e2b, e3a, e3b, e4a, e4b, e5a, e5b, e6a, e6b, e7a, e7b, e8a, e8b, e9a, e9b, e10a, e10b, e11a, e11b⟩ := idx_facts t
  funext y
  show V m c main_v0 (((cfg0.win 3).blk t).view.emb y) = _
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 257 + 1 * (y 1).val = (y 1).val; omega

theorem blk4_eq (c : Dev nD) (t : Fin cfg0.N) : (iblk m c 4 t : S512x257.Idx → EReal) = V m c main_arg4 := by
  obtain ⟨e0a, e0b, e1a, e1b, e12a, e12b, e2a, e2b, e3a, e3b, e4a, e4b, e5a, e5b, e6a, e6b, e7a, e7b, e8a, e8b, e9a, e9b, e10a, e10b, e11a, e11b⟩ := idx_facts t
  funext y
  show V m c main_arg4 (((cfg0.win 4).blk t).view.emb y) = _
  refine congrArg _ (funext fun a => Fin.ext ?_)
  match a with
  | ⟨0, _⟩ => show win0_4.index t (0 : Fin 2) * 512 + 1 * (y 0).val = (y 0).val; omega
  | ⟨1, _⟩ => show win0_4.index t (1 : Fin 2) * 257 + 1 * (y 1).val = (y 1).val; omega

theorem blk5_eq (c : Dev nD) (t : Fin cfg0.N) : (iblk m c 5 t : S1x257.Idx → EReal) = V m c main_v1 := by
  obtain ⟨e0a, e0b, e1a, e1b, e12a, e12b, e2a, e2b, e3a, e3b, e4a, e4b, e5a, e5b, e6a, e6b, e7a, e7b, e8a, e8b, e9a, e9b, e10a, e10b, e11a, e11b⟩ := idx_facts t
  funext y
  show V m c main_v1 (((cfg0.win 5).blk t).view.emb y) = _
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 257 + 1 * (y 1).val = (y 1).val; omega

theorem blk6_eq (c : Dev nD) (t : Fin cfg0.N) : (iblk m c 6 t : S512x256.Idx → EReal) = V m c main_arg6 := by
  obtain ⟨e0a, e0b, e1a, e1b, e12a, e12b, e2a, e2b, e3a, e3b, e4a, e4b, e5a, e5b, e6a, e6b, e7a, e7b, e8a, e8b, e9a, e9b, e10a, e10b, e11a, e11b⟩ := idx_facts t
  funext y
  show V m c main_arg6 (((cfg0.win 6).blk t).view.emb y) = _
  refine congrArg _ (funext fun a => Fin.ext ?_)
  match a with
  | ⟨0, _⟩ => show win0_6.index t (0 : Fin 2) * 512 + 1 * (y 0).val = (y 0).val; omega
  | ⟨1, _⟩ => show win0_6.index t (1 : Fin 2) * 256 + 1 * (y 1).val = (y 1).val; omega

theorem blk7_eq (c : Dev nD) (t : Fin cfg0.N) : (iblk m c 7 t : S1x256.Idx → EReal) = V m c main_v2 := by
  obtain ⟨e0a, e0b, e1a, e1b, e12a, e12b, e2a, e2b, e3a, e3b, e4a, e4b, e5a, e5b, e6a, e6b, e7a, e7b, e8a, e8b, e9a, e9b, e10a, e10b, e11a, e11b⟩ := idx_facts t
  funext y
  show V m c main_v2 (((cfg0.win 7).blk t).view.emb y) = _
  refine congrArg _ (funext fun a => Fin.ext ?_)
  match a with
  | ⟨0, _⟩ => show win0_7.index t (0 : Fin 2) * 1 + 1 * (y 0).val = (y 0).val; omega
  | ⟨1, _⟩ => show win0_7.index t (1 : Fin 2) * 256 + 1 * (y 1).val = (y 1).val; omega

theorem blk8_eq (c : Dev nD) (t : Fin cfg0.N) : (iblk m c 8 t : S256x128.Idx → EReal) = V m c main_arg8 := by
  obtain ⟨e0a, e0b, e1a, e1b, e12a, e12b, e2a, e2b, e3a, e3b, e4a, e4b, e5a, e5b, e6a, e6b, e7a, e7b, e8a, e8b, e9a, e9b, e10a, e10b, e11a, e11b⟩ := idx_facts t
  funext y
  show V m c main_arg8 (((cfg0.win 8).blk t).view.emb y) = _
  refine congrArg _ (funext fun a => Fin.ext ?_)
  match a with
  | ⟨0, _⟩ => show win0_8.index t (0 : Fin 2) * 256 + 1 * (y 0).val = (y 0).val; omega
  | ⟨1, _⟩ => show win0_8.index t (1 : Fin 2) * 128 + 1 * (y 1).val = (y 1).val; omega

theorem blk9_eq (c : Dev nD) (t : Fin cfg0.N) : (iblk m c 9 t : S1x128.Idx → EReal) = V m c main_v3 := by
  obtain ⟨e0a, e0b, e1a, e1b, e12a, e12b, e2a, e2b, e3a, e3b, e4a, e4b, e5a, e5b, e6a, e6b, e7a, e7b, e8a, e8b, e9a, e9b, e10a, e10b, e11a, e11b⟩ := idx_facts t
  funext y
  show V m c main_v3 (((cfg0.win 9).blk t).view.emb y) = _
  refine congrArg _ (funext fun a => Fin.ext ?_)
  match a with
  | ⟨0, _⟩ => show win0_9.index t (0 : Fin 2) * 1 + 1 * (y 0).val = (y 0).val; omega
  | ⟨1, _⟩ => show win0_9.index t (1 : Fin 2) * 128 + 1 * (y 1).val = (y 1).val; omega

theorem blk10_eq (c : Dev nD) (t : Fin cfg0.N) : (iblk m c 10 t : S128x1.Idx → EReal) = V m c main_arg10 := by
  obtain ⟨e0a, e0b, e1a, e1b, e12a, e12b, e2a, e2b, e3a, e3b, e4a, e4b, e5a, e5b, e6a, e6b, e7a, e7b, e8a, e8b, e9a, e9b, e10a, e10b, e11a, e11b⟩ := idx_facts t
  funext y
  show V m c main_arg10 (((cfg0.win 10).blk t).view.emb y) = _
  refine congrArg _ (funext fun a => Fin.ext ?_)
  match a with
  | ⟨0, _⟩ => show win0_10.index t (0 : Fin 2) * 128 + 1 * (y 0).val = (y 0).val; omega
  | ⟨1, _⟩ => show win0_10.index t (1 : Fin 2) * 1 + 1 * (y 1).val = (y 1).val; omega

theorem blk11_eq (c : Dev nD) (t : Fin cfg0.N) : (iblk m c 11 t : S1x1.Idx → EReal) = V m c main_v4 := by
  obtain ⟨e0a, e0b, e1a, e1b, e12a, e12b, e2a, e2b, e3a, e3b, e4a, e4b, e5a, e5b, e6a, e6b, e7a, e7b, e8a, e8b, e9a, e9b, e10a, e10b, e11a, e11b⟩ := idx_facts t
  funext y
  show V m c main_v4 (((cfg0.win 11).blk t).view.emb y) = _
  refine congrArg _ (funext fun a => Fin.ext ?_)
  match a with
  | ⟨0, _⟩ => show win0_11.index t (0 : Fin 2) * 1 + 1 * (y 0).val = (y 0).val; omega
  | ⟨1, _⟩ => show win0_11.index t (1 : Fin 2) * 1 + 1 * (y 1).val = (y 1).val; omega

/-- The stored value of a block whose rows are rows r(p) of the two inputs and whose other operands are the weights and the
    biases (as [1, N] rows): entry (p, q) is the whole-array function at (r(p), q). -/
theorem block_value (x0 x1 : Vec Ideal S1024x512 .f32) (x2 : Vec Ideal S512x257 .f32) (x3 : Vec Ideal S1x257 .f32)
    (x4 : Vec Ideal S512x257 .f32) (x5 : Vec Ideal S1x257 .f32) (x6 : Vec Ideal S512x256 .f32) (x7 : Vec Ideal S1x256 .f32)
    (x8 : Vec Ideal S256x128 .f32) (x9 : Vec Ideal S1x128 .f32) (x10 : Vec Ideal S128x1 .f32) (x11 : Vec Ideal S1x1 .f32)
    (a0 a1 : S16384x512.Idx → EReal) (a2 : S512x257.Idx → EReal) (a3 : S257.Idx → EReal) (a4 : S512x257.Idx → EReal)
    (a5 : S257.Idx → EReal) (a6 : S512x256.Idx → EReal) (a7 : S256.Idx → EReal) (a8 : S256x128.Idx → EReal)
    (a9 : S128.Idx → EReal) (a10 : S128x1.Idx → EReal) (a11 : S1.Idx → EReal) (r : Fin 1024 → Fin 16384)
    (h0 : ∀ p k, x0 (ix2 p k) = a0 (ix2 (r p) k)) (h1 : ∀ p k, x1 (ix2 p k) = a1 (ix2 (r p) k))
    (h2 : ∀ k n, x2 (ix2 k n) = a2 (ix2 k n)) (h3 : ∀ n, x3 (ix2 (0 : Fin 1) n) = a3 (ix1 n))
    (h4 : ∀ k n, x4 (ix2 k n) = a4 (ix2 k n)) (h5 : ∀ n, x5 (ix2 (0 : Fin 1) n) = a5 (ix1 n))
    (h6 : ∀ k n, x6 (ix2 k n) = a6 (ix2 k n)) (h7 : ∀ n, x7 (ix2 (0 : Fin 1) n) = a7 (ix1 n))
    (h8 : ∀ k n, x8 (ix2 k n) = a8 (ix2 k n)) (h9 : ∀ n, x9 (ix2 (0 : Fin 1) n) = a9 (ix1 n))
    (h10 : ∀ k n, x10 (ix2 k n) = a10 (ix2 k n)) (h11 : ∀ n, x11 (ix2 (0 : Fin 1) n) = a11 (ix1 n))
    (p : Fin 1024) (q : Fin 1) :
    k0_pay1 (k0_pay4 x0 x1 x2 x4 x3 x5) (k0_pay7 x0 x1 x2 x4 x3 x5) (k0_pay8 x0 x1 x2 x4 x3 x5 x6) (k0_pay9 x7) x8 x9 x10 x11 (ix2 p q)
      = resultFactored a0 a1 a2 a3 a4 a5 a6 a7 a8 a9 a10 a11 (ix2 (r p) q) := by
  refine (Row.out_at x0 x1 x2 x3 x4 x5 x6 x7 x8 x9 x10 x11 p q).trans ?_
  unfold resultFactored
  have e0 : rowOf x0 p = rowOf a0 (r p) := funext fun k => h0 p k
  have e1 : rowOf x1 p = rowOf a1 (r p) := funext fun k => h1 p k
  have e2 : matOf x2 = matOf a2 := funext fun k => funext fun n => h2 k n
  have e3 : rowOf x3 0 = vecOf a3 := funext fun n => h3 n
  have e4 : matOf x4 = matOf a4 := funext fun k => funext fun n => h4 k n
  have e5 : rowOf x5 0 = vecOf a5 := funext fun n => h5 n
  have e6 : matOf x6 = matOf a6 := funext fun k => funext fun n => h6 k n
  have e7 : rowOf x7 0 = vecOf a7 := funext fun n => h7 n
  have e8 : matOf x8 = matOf a8 := funext fun k => funext fun n => h8 k n
  have e9 : rowOf x9 0 = vecOf a9 := funext fun n => h9 n
  have e10 : matOf x10 = matOf a10 := funext fun k => funext fun n => h10 k n
  have e11 : rowOf x11 0 = vecOf a11 := funext fun n => h11 n
  rw [e0, e1, e2, e3, e4, e5, e6, e7, e8, e9, e10, e11]

/-- The whole-array function of the arguments as launched. -/
abbrev result (c : Dev nD) : S16384x1.Idx → EReal :=
  resultFactored (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

/-- WHAT POINT t WRITES BACK is block t of the whole-array function. -/
theorem flushed_eq (c : Dev nD) (t : Fin cfg0.N) :
    (dats m 0 c).flushed 12 t = ((cfg0.win 12).blk t).view.read (Elt Ideal) (result m c) := by
  obtain ⟨e0a, e0b, e1a, e1b, e12a, e12b, e2a, e2b, e3a, e3b, e4a, e4b, e5a, e5b, e6a, e6b, e7a, e7b, e8a, e8b, e9a, e9b, e10a, e10b, e11a, e11b⟩ := idx_facts t
  rw [Value.flushed12]
  unfold out0_12
  rw [View.canon_unit_zero hz]
  simp only [View.ld_unit_zero (S := S1024x512) hz, View.ld_unit_zero (S := S512x257) hz, View.ld_unit_zero (S := S1x257) hz,
    View.ld_unit_zero (S := S512x256) hz, View.ld_unit_zero (S := S1x256) hz, View.ld_unit_zero (S := S256x128) hz,
    View.ld_unit_zero (S := S1x128) hz, View.ld_unit_zero (S := S128x1) hz, View.ld_unit_zero (S := S1x1) hz]
  funext j
  obtain ⟨p, q, rfl⟩ : ∃ (p : Fin 1024) (q : Fin 1), j = ix2 p q := ⟨j 0, j 1, eq_ix2 j⟩
  refine Eq.trans (block_value (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (fun p => ⟨t.val * 1024 + p.val, by have := t_lt t; omega⟩)
    (fun p k => (blk0_at m c t p k).trans (congrFun (V_main_arg0 m c) _))
    (fun p k => (blk1_at m c t p k).trans (congrFun (V_main_arg1 m c) _))
    (fun k n => (congrFun (blk2_eq m c t) _).trans (congrFun (V_main_arg2 m c) _))
    (fun n => (congrFun (blk3_eq m c t) _).trans (bias3_at m c n))
    (fun k n => (congrFun (blk4_eq m c t) _).trans (congrFun (V_main_arg4 m c) _))
    (fun n => (congrFun (blk5_eq m c t) _).trans (bias5_at m c n))
    (fun k n => (congrFun (blk6_eq m c t) _).trans (congrFun (V_main_arg6 m c) _))
    (fun n => (congrFun (blk7_eq m c t) _).trans (bias7_at m c n))
    (fun k n => (congrFun (blk8_eq m c t) _).trans (congrFun (V_main_arg8 m c) _))
    (fun n => (congrFun (blk9_eq m c t) _).trans (bias9_at m c n))
    (fun k n => (congrFun (blk10_eq m c t) _).trans (congrFun (V_main_arg10 m c) _))
    (fun n => (congrFun (blk11_eq m c t) _).trans (bias11_at m c n)) p q) ?_
  show result m c _ = result m c (((cfg0.win 12).blk t).view.emb (ix2 p q))
  refine congrArg (result m c) (funext fun a => Fin.ext ?_)
  match a with
  | ⟨0, _⟩ => show t.val * 1024 + p.val = win0_12.index t (0 : Fin 2) * 1024 + 1 * p.val; omega
  | ⟨1, _⟩ => show q.val = win0_12.index t (1 : Fin 2) * 1 + 1 * q.val; omega

/-- An index of the result is in point t's block iff each coordinate is in the block's range on its axis. -/
theorem mem_blk (t : Fin cfg0.N) (i : S16384x1.Idx) :
    i ∈ ((cfg0.win 12).blk t).view.set ↔ ∀ a : Fin 2, win0_12.index t a * S1024x1.size a ≤ (i a).val
      ∧ (i a).val < win0_12.index t a * S1024x1.size a + S1024x1.size a := by
  show i ∈ ((View.whole main_v5).slice (win0_12.rect t)).set ↔ _
  rw [View.set_slice_whole, Rect.mem_set_unit]
  exact Iff.rfl

/-- The sixteen blocks cover the result: row b is in the block of point b / 1024. -/
theorem cover (i : S16384x1.Idx) : ∃ t : Fin cfg0.N, (cfg0.win 12).flush t = true ∧ i ∈ ((cfg0.win 12).blk t).view.set := by
  have hi0 : (i 0).val < 16384 := (i 0).isLt
  have hi1 : (i 1).val < 1 := (i 1).isLt
  have hN : cfg0.N = 16 := N_0
  let t : Fin cfg0.N := ⟨(i 0).val / 1024, by rw [hN]; omega⟩
  have htv : t.val = (i 0).val / 1024 := rfl
  obtain ⟨e0a, e0b, e1a, e1b, e12a, e12b, e2a, e2b, e3a, e3b, e4a, e4b, e5a, e5b, e6a, e6b, e7a, e7b, e8a, e8b, e9a, e9b, e10a, e10b, e11a, e11b⟩ := idx_facts t
  refine ⟨t, flush0_12 t, ?_⟩
  rw [mem_blk]
  intro a
  match a with
  | ⟨0, _⟩ =>
    show win0_12.index t (0 : Fin 2) * 1024 ≤ (i 0).val ∧ (i 0).val < win0_12.index t (0 : Fin 2) * 1024 + 1024
    omega
  | ⟨1, _⟩ =>
    show win0_12.index t (1 : Fin 2) * 1 ≤ (i 1).val ∧ (i 1).val < win0_12.index t (1 : Fin 2) * 1 + 1
    omega

/-- THE RESULT ARRAY after the run: the whole-array function of the arguments. -/
theorem final (c : Dev nD) : (dats m 0 c).arrAt 12 cfg0.N = result m c :=
  (dats m 0 c).arrAt_eq_of_cover 12 (result m c) (fun t _ => flushed_eq m c t) cover

/-- The run, read: the result array at the whole-array function (interaction term factored), the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (Value.run_blocks m ρ)

end Cert.KernelIdeal.Whole

end
-- ==== Proof.RefRow.lean ====
/-
  The reference's result, read at row b: the row-wise formula of Spec with the interaction term PAIRWISE, applied to
  row b of the two inputs and to the weights and biases.

  The reference computes on all 16384 rows at once: the two towers (a product plus a broadcast bias, 257 columns); their
  last column, added; their first 256 columns, (a) cast to [16384, 16, 16] and multiplied table against table over the last
  axis, all 256 dot products of a row of one table with a row of the other, flattened and summed from zero, and (b) joined
  into 512 columns and sent through three dense layers with relu between them; and the sum (mlp + last columns) +
  interaction. Each stage is read at an index through the generated one-operation lemmas; what is proved here is
  where the composed index maps land: row b throughout, and column 16·(n / 16) + k, 16·(n % 16) + k in the tables.
-/
import proofs.«150822_j72189810311759_1_alg».proof.Proof.Gen.ReferenceIdeal.Read
import proofs.«150822_j72189810311759_1_alg».proof.Proof.RowLemmas

noncomputable section

open scoped BigOperators

namespace Cert.ReferenceIdeal.Row

open Cert.ReferenceIdeal Cert.ReferenceIdeal.Gen Cert.ReferenceIdeal.Read Idealize.ShloMosaic Idealize.ShloMosaic.TcCoe
open Idealize.ShloMosaic.ValueIdx Cert.TwoTower

variable (x0 x1 : (⟨S16384x512, .f32⟩ : BufTy).Contents (Elt Ideal)) (x2 : (⟨S512x257, .f32⟩ : BufTy).Contents (Elt Ideal))
  (x3 : (⟨S257, .f32⟩ : BufTy).Contents (Elt Ideal)) (x4 : (⟨S512x257, .f32⟩ : BufTy).Contents (Elt Ideal))
  (x5 : (⟨S257, .f32⟩ : BufTy).Contents (Elt Ideal)) (x6 : (⟨S512x256, .f32⟩ : BufTy).Contents (Elt Ideal))
  (x7 : (⟨S256, .f32⟩ : BufTy).Contents (Elt Ideal)) (x8 : (⟨S256x128, .f32⟩ : BufTy).Contents (Elt Ideal))
  (x9 : (⟨S128, .f32⟩ : BufTy).Contents (Elt Ideal)) (x10 : (⟨S128x1, .f32⟩ : BufTy).Contents (Elt Ideal))
  (x11 : (⟨S1, .f32⟩ : BufTy).Contents (Elt Ideal))

/-- Row b of the first tower. -/
abbrev tw1 (b : Fin 16384) : Fin 257 → EReal := dense (rowOf x0 b) (matOf x2) (vecOf x3)
/-- Row b of the second tower. -/
abbrev tw2 (b : Fin 16384) : Fin 257 → EReal := dense (rowOf x1 b) (matOf x4) (vecOf x5)

/-- The first tower at (b, n). -/
theorem tower1_at (b : Fin 16384) (n : Fin 257) : val_main_v3 (F := Ideal) x0 x2 x3 (ix2 b n) = tw1 x0 x2 x3 b n := by
  rw [val_main_v3_apply, val_main_v0_apply, val_main_v2_apply, val_main_v1_apply]
  unfold tw1 dense
  show _ + _ = _ + _
  refine congrArg₂ (· + ·) (Finset.sum_congr rfl fun k _ => congrArg₂ (· * ·) (congrArg x0 ?_) (congrArg x2 ?_)) (congrArg x3 ?_)
  · funext a; match a with
    | ⟨0, _⟩ => rfl
    | ⟨1, _⟩ => rfl
  · funext a; match a with
    | ⟨0, _⟩ => rfl
    | ⟨1, _⟩ => rfl
  · funext a; match a with
    | ⟨0, _⟩ => rfl

/-- The second tower at (b, n). -/
theorem tower2_at (b : Fin 16384) (n : Fin 257) : val_main_v7 (F := Ideal) x1 x4 x5 (ix2 b n) = tw2 x1 x4 x5 b n := by
  rw [val_main_v7_apply, val_main_v4_apply, val_main_v6_apply, val_main_v5_apply]
  unfold tw2 dense
  show _ + _ = _ + _
  refine congrArg₂ (· + ·) (Finset.sum_congr rfl fun k _ => congrArg₂ (· * ·) (congrArg x1 ?_) (congrArg x4 ?_)) (congrArg x5 ?_)
  · funext a; match a with
    | ⟨0, _⟩ => rfl
    | ⟨1, _⟩ => rfl
  · funext a; match a with
    | ⟨0, _⟩ => rfl
    | ⟨1, _⟩ => rfl
  · funext a; match a with
    | ⟨0, _⟩ => rfl

/-- The towers' last columns, added, at row b. -/
theorem last_at (b : Fin 16384) :
    val_main_v12 (F := Ideal) x0 x1 x2 x3 x4 x5 (ix1 b) = tw1 x0 x2 x3 b 256 + tw2 x1 x4 x5 b 256 := by
  rw [val_main_v12_apply, val_main_v9_apply, val_main_v8_apply, val_main_v11_apply, val_main_v10_apply]
  show _ + _ = _ + _
  refine congrArg₂ (· + ·) ?_ ?_
  · refine Eq.trans (congrArg _ ?_) (tower1_at x0 x2 x3 b 256)
    funext a; match a with
    | ⟨0, _⟩ => exact Fin.ext (Nat.div_one _)
    | ⟨1, _⟩ => rfl
  · refine Eq.trans (congrArg _ ?_) (tower2_at x1 x4 x5 b 256)
    funext a; match a with
    | ⟨0, _⟩ => exact Fin.ext (Nat.div_one _)
    | ⟨1, _⟩ => rfl

/-- The flattened table product at (b, n): the dot product of row n / 16 of the first table with row n % 16 of the second. -/
theorem pairs_at (b : Fin 16384) (n : Fin 256) :
    val_main_v18 (F := Ideal) x0 x1 x2 x3 x4 x5 (ix2 b n)
      = ∑ k : Fin 16, tab (tw1 x0 x2 x3 b) ⟨n.val / 16, by omega⟩ k * tab (tw2 x1 x4 x5 b) ⟨n.val % 16, by omega⟩ k := by
  rw [val_main_v18_apply, val_main_v17_apply]
  refine Finset.sum_congr rfl fun k _ => congrArg₂ (· * ·) ?_ ?_
  · rw [val_main_v14_apply, val_main_v13_apply]
    refine Eq.trans (congrArg _ ?_) (tower1_at x0 x2 x3 b ⟨16 * (n.val / 16) + k.val, by omega⟩)
    funext a; match a with
    | ⟨0, _⟩ => exact Fin.ext (by
        show (((b.val * 256 + n.val) / 256 * 16 + (b.val * 256 + n.val) / 16 % 16) * 16 + k.val) / 256 = b.val
        omega)
    | ⟨1, _⟩ => exact Fin.ext (by
        show (((b.val * 256 + n.val) / 256 * 16 + (b.val * 256 + n.val) / 16 % 16) * 16 + k.val) % 256 = 16 * (n.val / 16) + k.val
        omega)
  · rw [val_main_v16_apply, val_main_v15_apply]
    refine Eq.trans (congrArg _ ?_) (tower2_at x1 x4 x5 b ⟨16 * (n.val % 16) + k.val, by omega⟩)
    funext a; match a with
    | ⟨0, _⟩ => exact Fin.ext (by
        show (((b.val * 256 + n.val) / 256 * 16 + (b.val * 256 + n.val) % 16) * 16 + k.val) / 256 = b.val
        omega)
    | ⟨1, _⟩ => exact Fin.ext (by
        show (((b.val * 256 + n.val) / 256 * 16 + (b.val * 256 + n.val) % 16) * 16 + k.val) % 256 = 16 * (n.val % 16) + k.val
        omega)

/-- The interaction term at row b: pairwise. -/
theorem inter_at (b : Fin 16384) (q : Fin 1) :
    val_main_v39 (F := Ideal) x0 x1 x2 x3 x4 x5 (ix2 b q) = fmPairs (tw1 x0 x2 x3 b) (tw2 x1 x4 x5 b) := by
  rw [val_main_v39_apply, val_main_v38_apply]
  unfold fmPairs
  refine congrArg₂ (· + ·) ?_ (Finset.sum_congr rfl fun n _ => ?_)
  · show Ideal.ofBits .f32 0x00000000#32 = 0
    exact Ideal.ofBits_zero_f32
  · refine Eq.trans (congrArg _ ?_) (pairs_at x0 x1 x2 x3 x4 x5 b n)
    funext a; match a with
    | ⟨0, _⟩ => rfl
    | ⟨1, _⟩ => rfl

/-- The two towers' first 256 columns joined, on row b. -/
theorem cat_at (b : Fin 16384) :
    rowOf (val_main_v21 (F := Ideal) x0 x1 x2 x3 x4 x5) b = cat (tw1 x0 x2 x3 b) (tw2 x1 x4 x5 b) := by
  funext k
  unfold val_main_v21
  refine (concat_row _ _ _ b k).trans ?_
  unfold cat
  by_cases hk : k.val < 256
  · rw [dif_pos hk, dif_pos hk, val_main_v19_apply]
    refine Eq.trans (congrArg _ ?_) (tower1_at x0 x2 x3 b ⟨k.val, by omega⟩)
    funext a; match a with
    | ⟨0, _⟩ => rfl
    | ⟨1, _⟩ => rfl
  · rw [dif_neg hk, dif_neg hk, val_main_v20_apply]
    refine Eq.trans (congrArg _ ?_) (tower2_at x1 x4 x5 b ⟨k.val - 256, by omega⟩)
    funext a; match a with
    | ⟨0, _⟩ => rfl
    | ⟨1, _⟩ => rfl

/-- Row b after the first dense layer and relu. -/
abbrev hid1 (b : Fin 16384) : Fin 256 → EReal :=
  relu (dense (cat (tw1 x0 x2 x3 b) (tw2 x1 x4 x5 b)) (matOf x6) (vecOf x7))
/-- Row b after the second dense layer and relu. -/
abbrev hid2 (b : Fin 16384) : Fin 128 → EReal := relu (dense (hid1 x0 x1 x2 x3 x4 x5 x6 x7 b) (matOf x8) (vecOf x9))

/-- The first hidden layer at (b, n). -/
theorem hidden1_at (b : Fin 16384) (n : Fin 256) :
    val_main_v26 (F := Ideal) x0 x1 x2 x3 x4 x5 x6 x7 (ix2 b n) = hid1 x0 x1 x2 x3 x4 x5 x6 x7 b n := by
  rw [val_main_v26_apply, val_main_v25_apply, val_main_v22_apply, val_main_v24_apply, val_main_v23_apply,
    val_main_call0_v0_apply, val_main_call0_cst_apply]
  unfold hid1 relu dense
  show max (_ + _) (Ideal.ofBits .f32 0x00000000#32) = max (_ + _) 0
  rw [Ideal.ofBits_zero_f32]
  refine congrArg (max · 0) (congrArg₂ (· + ·) (Finset.sum_congr rfl fun k _ => congrArg₂ (· * ·) ?_ (congrArg x6 ?_)) (congrArg x7 ?_))
  · refine Eq.trans (congrArg _ ?_) (congrFun (cat_at x0 x1 x2 x3 x4 x5 b) k)
    funext a; match a with
    | ⟨0, _⟩ => rfl
    | ⟨1, _⟩ => rfl
  · funext a; match a with
    | ⟨0, _⟩ => rfl
    | ⟨1, _⟩ => rfl
  · funext a; match a with
    | ⟨0, _⟩ => rfl

/-- The second hidden layer at (b, n). -/
theorem hidden2_at (b : Fin 16384) (n : Fin 128) :
    val_main_v31 (F := Ideal) x0 x1 x2 x3 x4 x5 x6 x7 x8 x9 (ix2 b n) = hid2 x0 x1 x2 x3 x4 x5 x6 x7 x8 x9 b n := by
  rw [val_main_v31_apply, val_main_v30_apply, val_main_v27_apply, val_main_v29_apply, val_main_v28_apply,
    val_main_call1_v0_apply, val_main_call1_cst_apply]
  unfold hid2 relu dense
  show max (_ + _) (Ideal.ofBits .f32 0x00000000#32) = max (_ + _) 0
  rw [Ideal.ofBits_zero_f32]
  refine congrArg (max · 0) (congrArg₂ (· + ·) (Finset.sum_congr rfl fun k _ => congrArg₂ (· * ·) ?_ (congrArg x8 ?_)) (congrArg x9 ?_))
  · refine Eq.trans (congrArg _ ?_) (hidden1_at x0 x1 x2 x3 x4 x5 x6 x7 b k)
    funext a; match a with
    | ⟨0, _⟩ => rfl
    | ⟨1, _⟩ => rfl
  · funext a; match a with
    | ⟨0, _⟩ => rfl
    | ⟨1, _⟩ => rfl
  · funext a; match a with
    | ⟨0, _⟩ => rfl

/-- The perceptron's output at row b. -/
theorem mlp_at (b : Fin 16384) (q : Fin 1) :
    val_main_v35 (F := Ideal) x0 x1 x2 x3 x4 x5 x6 x7 x8 x9 x10 x11 (ix2 b q)
      = mlp (tw1 x0 x2 x3 b) (tw2 x1 x4 x5 b) (matOf x6) (vecOf x7) (matOf x8) (vecOf x9) (matOf x10) (vecOf x11) := by
  obtain rfl : q = 0 := Fin.ext (by omega)
  rw [val_main_v35_apply, val_main_v32_apply, val_main_v34_apply, val_main_v33_apply]
  unfold mlp dense
  show _ + _ = _ + _
  refine congrArg₂ (· + ·) (Finset.sum_congr rfl fun k _ => congrArg₂ (· * ·) ?_ (congrArg x10 ?_)) (congrArg x11 ?_)
  · refine Eq.trans (congrArg _ ?_) (hidden2_at x0 x1 x2 x3 x4 x5 x6 x7 x8 x9 b k)
    funext a; match a with
    | ⟨0, _⟩ => rfl
    | ⟨1, _⟩ => rfl
  · funext a; match a with
    | ⟨0, _⟩ => rfl
    | ⟨1, _⟩ => rfl
  · funext a; match a with
    | ⟨0, _⟩ => rfl

/-- THE REFERENCE'S RESULT at row b: the row-wise formula, interaction term pairwise, of row b of the two inputs and of
    the weights and biases. -/
theorem out_at (b : Fin 16384) (q : Fin 1) :
    val_main_v40 (F := Ideal) x0 x1 x2 x3 x4 x5 x6 x7 x8 x9 x10 x11 (ix2 b q)
      = logitPairs (rowOf x0 b) (rowOf x1 b) (matOf x2) (vecOf x3) (matOf x4) (vecOf x5) (matOf x6) (vecOf x7)
          (matOf x8) (vecOf x9) (matOf x10) (vecOf x11) := by
  rw [val_main_v40_apply, val_main_v37_apply, val_main_v36_apply]
  unfold logitPairs logitOf
  show (_ + _) + _ = (_ + _) + _
  refine congrArg₂ (· + ·) (congrArg₂ (· + ·) ?_ ?_) ?_
  · exact mlp_at x0 x1 x2 x3 x4 x5 x6 x7 x8 x9 x10 x11 b q
  · refine Eq.trans (congrArg _ ?_) (last_at x0 x1 x2 x3 x4 x5 b)
    funext a; match a with
    | ⟨0, _⟩ => rfl
  · exact inter_at x0 x1 x2 x3 x4 x5 b q

end Cert.ReferenceIdeal.Row

end
-- ==== Proof.Finite.lean ====
/-
  From the precondition to real numbers. The precondition is the conjunction, over the twelve inputs, of
  all(|x| < +∞); at the ideal values |x| is max(x, −x) and the pattern 0x7F800000 is +∞, so each conjunct says that no
  entry of that input is an infinity: every entry is a real number. Only the six inputs that feed the two towers are
  needed (the interaction term is where distributivity is used).
-/
import proofs.«150822_j72189810311759_1_alg».proof.Pre_finite_inputs
import proofs.«150822_j72189810311759_1_alg».proof.Proof.Spec
import Idealize.ShloMosaic.Lib.ReduceAll
import Idealize.ShloMosaic.Lib.ValueIdx

noncomputable section

namespace Cert.TwoTower

open Idealize.ShloMosaic Idealize.ShloMosaic.ValueIdx

/-- An extended real whose absolute value is below +∞ is a real number. -/
theorem real_of_abs_lt_inf (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  rw [max_lt_iff] at hlt
  induction x using EReal.rec with
  | bot => simp at hlt
  | coe r => exact ⟨r, rfl⟩
  | top => simp at hlt

instance : Subsingleton (⟨0, ![]⟩ : Shape).Idx := ⟨fun a b => funext fun d => d.elim0⟩

/-- all(|x| < +∞) over a whole array: every entry is a real number. -/
theorem realValued_of_all {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (h : Host.reduce IntOp.andi (cmpf .olt (Host.absf x) (broadcastInDim s ![] hb (constant (F := Ideal) ⟨0, ![]⟩ .f32 0x7F800000#32)))
      (constantI ⟨0, ![]⟩ 1 1#1) hr hu ix0 = 1#1) : RealValued x := fun i =>
  real_of_abs_lt_inf (x i) (Host.reduce_andi_all _ _ hr hu ix0 h i)

theorem andi_apply {s : Shape} {w : Nat} (x y : IVec s w) (i : s.Idx) : andi x y i = IntOp.andi (x i) (y i) := rfl

open Cert.Pre_finite_inputs in
/-- Under the precondition the six inputs of the two towers have real entries. -/
theorem towers_real [Cert.Pre_finite_inputs.Facts] (a0 a1 : FVec Ideal S16384x512 .f32) (a2 : FVec Ideal S512x257 .f32)
    (a3 : FVec Ideal S257 .f32) (a4 : FVec Ideal S512x257 .f32) (a5 : FVec Ideal S257 .f32) (a6 : FVec Ideal S512x256 .f32)
    (a7 : FVec Ideal S256 .f32) (a8 : FVec Ideal S256x128 .f32) (a9 : FVec Ideal S128 .f32) (a10 : FVec Ideal S128x1 .f32)
    (a11 : FVec Ideal S1 .f32)
    (h : Cert.Pre_finite_inputs.fn (F := Ideal) a0 a1 a2 a3 a4 a5 a6 a7 a8 a9 a10 a11 = fun _ => 1#1) :
    RealValued a0 ∧ RealValued a1 ∧ RealValued a2 ∧ RealValued a3 ∧ RealValued a4 ∧ RealValued a5 := by
  have h' := congrFun h ix0
  dsimp only [Cert.Pre_finite_inputs.fn, Cert.Pre_finite_inputs.fn_part1, Cert.Pre_finite_inputs.fn_part2,
    Cert.Pre_finite_inputs.fn_part3] at h'
  simp only [andi_apply, IntOp.andi_eq_one] at h'
  obtain ⟨⟨⟨⟨⟨⟨⟨⟨⟨⟨⟨h0, h1⟩, h2⟩, h3⟩, h4⟩, h5⟩, h6⟩, h7⟩, h8⟩, h9⟩, h10⟩, h11⟩ := h'
  exact ⟨realValued_of_all a0 _ _ _ h0, realValued_of_all a1 _ _ _ h1, realValued_of_all a2 _ _ _ h2,
    realValued_of_all a3 _ _ _ h3, realValued_of_all a4 _ _ _ h4, realValued_of_all a5 _ _ _ h5⟩

end Cert.TwoTower

end
-- ==== Proof.lean ====
/-
  A two-tower factorization-machine network on 16384 rows: each row x of the first input and y of the second give
    m = x·Wm + bm,  u = y·Wu + bu   (257 entries each),
    out = (mlp(cat(m[0..256), u[0..256))) + (m[256] + u[256])) + fm(m, u),
  with mlp three dense layers (512 → 256 → 128 → 1) with relu between them, and fm the sum of all 256 dot products between a
  row of the 16 × 16 table in m[0..256) and a row of the table in u[0..256).

  The kernel works on 16 blocks of 1024 rows, keeps every weight resident, feeds its matrix products in a narrower float
  format (the identity on the extended reals) and computes fm FACTORED, Σ_k (Σ_i M i k)·(Σ_j U j k). The reference works on
  all rows at once and computes fm PAIRWISE, 0 + Σ_n Σ_k M (n / 16) k · U (n % 16) k. Everything but fm is the same
  formula on both sides, sums over the same index sets in the same order of additions; for fm the two agree by
  distributivity, which on the extended reals needs the towers' entries to be real numbers: that is what the
  precondition (every input finite) gives.

  Read at a row (Proof/KernelRow.lean for the kernel's stored block, Proof/RefRow.lean for the reference's stages), carried
  from blocks to the array (Proof/KernelArray.lean), joined by the law (Proof/Spec.lean, Proof/Result.lean) under
  finiteness (Proof/Finite.lean). The kernel has no idealization rewrites, so the preservation claim is trivial.
-/
import proofs.«150822_j72189810311759_1_alg».proof.Defs
import proofs.«150822_j72189810311759_1_alg».proof.Proof.Gen.Kernel
import proofs.«150822_j72189810311759_1_alg».proof.Proof.Gen.Kernel.Skeleton
import proofs.«150822_j72189810311759_1_alg».proof.Proof.Gen.Kernel.Launch
import proofs.«150822_j72189810311759_1_alg».proof.Proof.Gen.Kernel.Points
import proofs.«150822_j72189810311759_1_alg».proof.Proof.Gen.Kernel.Frame
import proofs.«150822_j72189810311759_1_alg».proof.Proof.Gen.KernelIdeal
import proofs.«150822_j72189810311759_1_alg».proof.Proof.Gen.KernelIdeal.Skeleton
import proofs.«150822_j72189810311759_1_alg».proof.Proof.Gen.KernelIdeal.Launch
import proofs.«150822_j72189810311759_1_alg».proof.Proof.Gen.KernelIdeal.Points
import proofs.«150822_j72189810311759_1_alg».proof.Proof.Gen.KernelIdeal.Frame
import proofs.«150822_j72189810311759_1_alg».proof.Proof.Gen.ReferenceIdeal
import proofs.«150822_j72189810311759_1_alg».proof.Proof.Gen.Pre_finite_inputs
import proofs.«150822_j72189810311759_1_alg».proof.Proof.Gen.KernelIdeal.Value
import proofs.«150822_j72189810311759_1_alg».proof.Proof.Gen.ReferenceIdeal.Run
import proofs.«150822_j72189810311759_1_alg».proof.Proof.Gen.ReferenceIdeal.Read
import proofs.«150822_j72189810311759_1_alg».proof.Proof.KernelArray
import proofs.«150822_j72189810311759_1_alg».proof.Proof.RefRow
import proofs.«150822_j72189810311759_1_alg».proof.Proof.Finite
import Idealize.ShloMosaic.Adequacy
import Idealize.ShloMosaic.Init

noncomputable section

namespace Cert.Proof

open Idealize.ShloMosaic Idealize.SL.Sem Idealize.ShloMosaic.ValueIdx Cert.TwoTower

/-- The reference's result array is the whole-array function with the interaction term pairwise. -/
theorem reference_result (x0 x1 : (⟨Cert.ReferenceIdeal.S16384x512, .f32⟩ : BufTy).Contents (Elt Ideal))
    (x2 : (⟨Cert.ReferenceIdeal.S512x257, .f32⟩ : BufTy).Contents (Elt Ideal)) (x3 : (⟨Cert.ReferenceIdeal.S257, .f32⟩ : BufTy).Contents (Elt Ideal))
    (x4 : (⟨Cert.ReferenceIdeal.S512x257, .f32⟩ : BufTy).Contents (Elt Ideal)) (x5 : (⟨Cert.ReferenceIdeal.S257, .f32⟩ : BufTy).Contents (Elt Ideal))
    (x6 : (⟨Cert.ReferenceIdeal.S512x256, .f32⟩ : BufTy).Contents (Elt Ideal)) (x7 : (⟨Cert.ReferenceIdeal.S256, .f32⟩ : BufTy).Contents (Elt Ideal))
    (x8 : (⟨Cert.ReferenceIdeal.S256x128, .f32⟩ : BufTy).Contents (Elt Ideal)) (x9 : (⟨Cert.ReferenceIdeal.S128, .f32⟩ : BufTy).Contents (Elt Ideal))
    (x10 : (⟨Cert.ReferenceIdeal.S128x1, .f32⟩ : BufTy).Contents (Elt Ideal)) (x11 : (⟨Cert.ReferenceIdeal.S1, .f32⟩ : BufTy).Contents (Elt Ideal)) :
    Cert.ReferenceIdeal.Read.val_main_v40 (F := Ideal) x0 x1 x2 x3 x4 x5 x6 x7 x8 x9 x10 x11
      = resultPairs x0 x1 x2 x3 x4 x5 x6 x7 x8 x9 x10 x11 := by
  funext i
  obtain ⟨b, q, rfl⟩ : ∃ (b : Fin 16384) (q : Fin 1), i = ix2 b q := ⟨i 0, i 1, eq_ix2 i⟩
  exact Cert.ReferenceIdeal.Row.out_at x0 x1 x2 x3 x4 x5 x6 x7 x8 x9 x10 x11 b q

theorem frame_kernel : Cert.frame_Kernel := fun m ρ _ => Cert.Kernel.Gen.frame m ρ
theorem frame_kernelIdeal : Cert.frame_KernelIdeal := fun m ρ _ => Cert.KernelIdeal.Gen.frame m ρ
/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both runs end with the result array at the whole-array function of the (agreeing) arguments: the kernel's with the
    interaction term factored, the reference's pairwise, one array since the tower inputs are finite. -/
theorem algebraic : Cert.algebraic_KernelIdeal_ReferenceIdeal := by
  intro m ρ m' ρ' hpre hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v40_eq (F := Ideal) _ _ _ _ _ _ _ _ _ _ _ _).trans ?_
  refine (reference_result _ _ _ _ _ _ _ _ _ _ _ _).trans ?_
  obtain ⟨g0, g1, g2, g3, g4, g5, g6, g7, g8, g9, g10, g11⟩ := hagree c
  rw [g0, g1, g2, g3, g4, g5, g6, g7, g8, g9, g10, g11]
  obtain ⟨r0, r1, r2, r3, r4, r5⟩ := towers_real _ _ _ _ _ _ _ _ _ _ _ _ (hpre c)
  exact (resultFactored_eq_resultPairs _ _ _ _ _ _ _ _ _ _ _ _ r0 r1 r2 r3 r4 r5).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
